-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S12288x512 : Shape := ⟨2, ![12288, 512]⟩
abbrev S12288x32 : Shape := ⟨2, ![12288, 32]⟩
abbrev S12288 : Shape := ⟨1, ![12288]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S12288x32 : S_.BroadcastsInDim S12288x32 (![] : Fin 0 → Fin S12288x32.rank)
  reducesTo_S12288x32_S_d0_1 : S12288x32.ReducesTo [0, 1] S_
  bcast_S_S12288 : S_.BroadcastsInDim S12288 (![] : Fin 0 → Fin S12288.rank)
  reducesTo_S12288_S_d0 : S12288.ReducesTo [0] S_

variable [Facts]

def fn {F : FTy → Type} [FloatOps F] (main_arg0 : FVec F S4096x4096 .f32) (main_arg1 : IVec S12288x512 32) (main_arg2 : FVec F S12288x32 .f32) (main_arg3 : FVec F S12288 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S12288x32 .f32 := Host.absf main_arg2
  let main_cst_0 : FVec F S_ .f32 := constant S_ .f32 0x7F800000#32
  let main_v5 : FVec F S12288x32 .f32 := broadcastInDim S12288x32 ![] bcast_S_S12288x32 main_cst_0
  let main_v6 : IVec S12288x32 1 := cmpf .olt main_v4 main_v5
  let main_c_1 : IVec S_ 1 := constantI S_ 1 1#1
  let main_v7 : IVec S_ 1 := (fun x v => Host.reduce IntOp.andi x v reducesTo_S12288x32_S_d0_1 h_S_) main_v6 main_c_1
  let main_v8 : IVec S_ 1 := andi main_v3 main_v7
  let main_v9 : FVec F S12288 .f32 := Host.absf main_arg3
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  main_v13
-- ==== Kernel.lean ====
abbrev S4096x4096 : Shape := ⟨2, ![4096, 4096]⟩
abbrev S12288x512 : Shape := ⟨2, ![12288, 512]⟩
abbrev S12288x32 : Shape := ⟨2, ![12288, 32]⟩
abbrev S12288 : Shape := ⟨1, ![12288]⟩
abbrev S4096x512x8 : Shape := ⟨3, ![4096, 512, 8]⟩
abbrev S4096x8x512 : Shape := ⟨3, ![4096, 8, 512]⟩
abbrev S12288x32x16 : Shape := ⟨3, ![12288, 32, 16]⟩
abbrev S1x12288 : Shape := ⟨2, ![1, 12288]⟩
abbrev S4096x12288 : Shape := ⟨2, ![4096, 12288]⟩
abbrev S512x4096 : Shape := ⟨2, ![512, 4096]⟩
abbrev S1024x512 : Shape := ⟨2, ![1024, 512]⟩
abbrev S1x1024 : Shape := ⟨2, ![1, 1024]⟩
abbrev S512x1024 : Shape := ⟨2, ![512, 1024]⟩
abbrev S1024x4096 : Shape := ⟨2, ![1024, 4096]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S12288x512, .i32⟩
  | .hbm, ⟨2, _⟩ => ⟨S12288x32, .f32⟩
  | .hbm, ⟨3, _⟩ => ⟨S12288, .f32⟩
  | .hbm, ⟨4, _⟩ => ⟨S4096x512x8, .f32⟩
  | .hbm, ⟨5, _⟩ => ⟨S4096x8x512, .f32⟩
  | .hbm, ⟨6, _⟩ => ⟨S4096x4096, .f32⟩
  | .hbm, ⟨7, _⟩ => ⟨S4096x4096, .bf16⟩
  | .hbm, ⟨8, _⟩ => ⟨S12288x32x16, .f32⟩
  | .hbm, ⟨9, _⟩ => ⟨S12288x512, .f32⟩
  | .hbm, ⟨10, _⟩ => ⟨S1x12288, .f32⟩
  | .hbm, ⟨11, _⟩ => ⟨S4096x12288, .f32⟩
  | .local _ .vmem, ⟨0, _⟩ => ⟨S512x4096, .bf16⟩
  | .local _ .vmem, ⟨1, _⟩ => ⟨S512x4096, .bf16⟩
  | .local _ .vmem, ⟨2, _⟩ => ⟨S1024x512, .i32⟩
  | .local _ .vmem, ⟨3, _⟩ => ⟨S1024x512, .i32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1024x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096x4096_S4096x512x8 : S4096x4096.ShapeCasts S4096x512x8
  transposes_S4096x512x8_S4096x8x512_0_2_1 : S4096x512x8.Transposes [0, 2, 1] S4096x8x512
  shapeCasts_S4096x8x512_S4096x4096 : S4096x8x512.ShapeCasts S4096x4096
  bitsLt_bf16_f32 : FTy.bits .bf16 < FTy.bits .f32
  bcast_S12288x32_S12288x32x16_0_1 : S12288x32.BroadcastsInDim S12288x32x16 (![0, 1] : Fin 2 → Fin S12288x32x16.rank)
  shapeCasts_S12288x32x16_S12288x512 : S12288x32x16.ShapeCasts S12288x512
  shapeCasts_S12288_S1x12288 : S12288.ShapeCasts S1x12288
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  inb_S1024x4096_S1024x512_0_0 : ∀ a, (![0, 0] : Fin 2 → Nat) a + S1024x512.size a ≤ S1024x4096.size a
  packedbf16_S1024x4096_S1024x512_0_0 : (Rect.unit (s := S1024x4096) ![0, 0] S1024x512.size inb_S1024x4096_S1024x512_0_0).PackedRows (EltTy.packing .bf16)
  inb_S512x4096_S512x512_0_0 : ∀ a, (![0, 0] : Fin 2 → Nat) a + S512x512.size a ≤ S512x4096.size a
  h_S512x512 : 0 < S512x512.numel
  shapeCasts_S512x512_S512x512 : S512x512.ShapeCasts S512x512
  shapeCasts_S512x1024_S512x1024 : S512x1024.ShapeCasts S512x1024
  inb_S1024x4096_S1024x512_0_512 : ∀ a, (![0, 512] : Fin 2 → Nat) a + S1024x512.size a ≤ S1024x4096.size a
  packedbf16_S1024x4096_S1024x512_0_512 : (Rect.unit (s := S1024x4096) ![0, 512] S1024x512.size inb_S1024x4096_S1024x512_0_512).PackedRows (EltTy.packing .bf16)
  inb_S512x4096_S512x512_0_512 : ∀ a, (![0, 512] : Fin 2 → Nat) a + S512x512.size a ≤ S512x4096.size a
  inb_S1024x4096_S1024x512_0_1024 : ∀ a, (![0, 1024] : Fin 2 → Nat) a + S1024x512.size a ≤ S1024x4096.size a
  packedbf16_S1024x4096_S1024x512_0_1024 : (Rect.unit (s := S1024x4096) ![0, 1024] S1024x512.size inb_S1024x4096_S1024x512_0_1024).PackedRows (EltTy.packing .bf16)
  inb_S512x4096_S512x512_0_1024 : ∀ a, (![0, 1024] : Fin 2 → Nat) a + S512x512.size a ≤ S512x4096.size a
  inb_S1024x4096_S1024x512_0_1536 : ∀ a, (![0, 1536] : Fin 2 → Nat) a + S1024x512.size a ≤ S1024x4096.size a
  packedbf16_S1024x4096_S1024x512_0_1536 : (Rect.unit (s := S1024x4096) ![0, 1536] S1024x512.size inb_S1024x4096_S1024x512_0_1536).PackedRows (EltTy.packing .bf16)
  inb_S512x4096_S512x512_0_1536 : ∀ a, (![0, 1536] : Fin 2 → Nat) a + S512x512.size a ≤ S512x4096.size a
  inb_S1024x4096_S1024x512_0_2048 : ∀ a, (![0, 2048] : Fin 2 → Nat) a + S1024x512.size a ≤ S1024x4096.size a
  packedbf16_S1024x4096_S1024x512_0_2048 : (Rect.unit (s := S1024x4096) ![0, 2048] S1024x512.size inb_S1024x4096_S1024x512_0_2048).PackedRows (EltTy.packing .bf16)
  inb_S512x4096_S512x512_0_2048 : ∀ a, (![0, 2048] : Fin 2 → Nat) a + S512x512.size a ≤ S512x4096.size a
  inb_S1024x4096_S1024x512_0_2560 : ∀ a, (![0, 2560] : Fin 2 → Nat) a + S1024x512.size a ≤ S1024x4096.size a
  packedbf16_S1024x4096_S1024x512_0_2560 : (Rect.unit (s := S1024x4096) ![0, 2560] S1024x512.size inb_S1024x4096_S1024x512_0_2560).PackedRows (EltTy.packing .bf16)
  inb_S512x4096_S512x512_0_2560 : ∀ a, (![0, 2560] : Fin 2 → Nat) a + S512x512.size a ≤ S512x4096.size a
  inb_S1024x4096_S1024x512_0_3072 : ∀ a, (![0, 3072] : Fin 2 → Nat) a + S1024x512.size a ≤ S1024x4096.size a
  packedbf16_S1024x4096_S1024x512_0_3072 : (Rect.unit (s := S1024x4096) ![0, 3072] S1024x512.size inb_S1024x4096_S1024x512_0_3072).PackedRows (EltTy.packing .bf16)
  inb_S512x4096_S512x512_0_3072 : ∀ a, (![0, 3072] : Fin 2 → Nat) a + S512x512.size a ≤ S512x4096.size a
  inb_S1024x4096_S1024x512_0_3584 : ∀ a, (![0, 3584] : Fin 2 → Nat) a + S1024x512.size a ≤ S1024x4096.size a
  packedbf16_S1024x4096_S1024x512_0_3584 : (Rect.unit (s := S1024x4096) ![0, 3584] S1024x512.size inb_S1024x4096_S1024x512_0_3584).PackedRows (EltTy.packing .bf16)
  inb_S512x4096_S512x512_0_3584 : ∀ a, (![0, 3584] : Fin 2 → Nat) a + S512x512.size a ≤ S512x4096.size a
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  dot_S512x512_S1024x512_S512x1024_1_1_0_0_n_n_wf : DotDims.WF S512x512 S1024x512 S512x1024 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S12288x512.size a
  hwx0_1 : ∀ i : grid0.Coords, EltTy.bits .i32 = 32 ∨ (Rect.block (s := S12288x512) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S12288x512.size a
  hwx0_2 : ∀ i : grid0.Coords, EltTy.bits .f32 = 32 ∨ (Rect.block (s := S12288x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x12288.size a
  hwx0_3 : ∀ i : grid0.Coords, EltTy.bits .f32 = 32 ∨ (Rect.block (s := S1x12288) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x12288.size a
  hwx0_4 : ∀ i : grid0.Coords, EltTy.bits .f32 = 32 ∨ (Rect.block (s := S4096x12288) S512x1024.size (cc0_transform_4 i) (hinb0_4 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v3) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S12288x512 : Shape := ⟨2, ![12288, 512]⟩
abbrev S12288x32 : Shape := ⟨2, ![12288, 32]⟩
abbrev S12288 : Shape := ⟨1, ![12288]⟩
abbrev S8 : Shape := ⟨1, ![8]⟩
abbrev S_ : Shape := ⟨0, ![]⟩
abbrev S12288x512x1 : Shape := ⟨3, ![12288, 512, 1]⟩
abbrev S1x1x8 : Shape := ⟨3, ![1, 1, 8]⟩
abbrev S12288x512x8 : Shape := ⟨3, ![12288, 512, 8]⟩
abbrev S12288x4096 : Shape := ⟨2, ![12288, 4096]⟩
abbrev S12288x32x128 : Shape := ⟨3, ![12288, 32, 128]⟩
abbrev S4096x12288 : Shape := ⟨2, ![4096, 12288]⟩
abbrev S1x12288 : Shape := ⟨2, ![1, 12288]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S12288x512, .i32⟩
  | .hbm, ⟨2, _⟩ => ⟨S12288x32, .f32⟩
  | .hbm, ⟨3, _⟩ => ⟨S12288, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S12288x512x1, .i32⟩
  | .hbm, ⟨12, _⟩ => ⟨S1x1x8, .i32⟩
  | .hbm, ⟨13, _⟩ => ⟨S12288x512x8, .i32⟩
  | .hbm, ⟨14, _⟩ => ⟨S12288x512x8, .i32⟩
  | .hbm, ⟨15, _⟩ => ⟨S12288x512x8, .i32⟩
  | .hbm, ⟨16, _⟩ => ⟨S_, .i32⟩
  | .hbm, ⟨17, _⟩ => ⟨S12288x512x8, .i32⟩
  | .hbm, ⟨18, _⟩ => ⟨S12288x512x8, .i32⟩
  | .hbm, ⟨19, _⟩ => ⟨S12288x4096, .i32⟩
  | .hbm, ⟨20, _⟩ => ⟨S12288x4096, .f32⟩
  | .hbm, ⟨21, _⟩ => ⟨S12288x32x128, .f32⟩
  | .hbm, ⟨22, _⟩ => ⟨S12288x4096, .f32⟩
  | .hbm, ⟨23, _⟩ => ⟨S12288x4096, .f32⟩
  | .hbm, ⟨24, _⟩ => ⟨S4096x12288, .f32⟩
  | .hbm, ⟨25, _⟩ => ⟨S1x12288, .f32⟩
  | .hbm, ⟨26, _⟩ => ⟨S4096x12288, .f32⟩
  | .hbm, ⟨27, _⟩ => ⟨S4096x12288, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S12288x512_S12288x512x1_0_1 : S12288x512.BroadcastsInDim S12288x512x1 (![0, 1] : Fin 2 → Fin S12288x512x1.rank)
  bcast_S8_S1x1x8_2 : S8.BroadcastsInDim S1x1x8 (![2] : Fin 1 → Fin S1x1x8.rank)
  bcast_S12288x512x1_S12288x512x8_0_1_2 : S12288x512x1.BroadcastsInDim S12288x512x8 (![0, 1, 2] : Fin 3 → Fin S12288x512x8.rank)
  bcast_S1x1x8_S12288x512x8_0_1_2 : S1x1x8.BroadcastsInDim S12288x512x8 (![0, 1, 2] : Fin 3 → Fin S12288x512x8.rank)
  bcast_S_S12288x512x8 : S_.BroadcastsInDim S12288x512x8 (![] : Fin 0 → Fin S12288x512x8.rank)
  shapeCasts_S12288x512x8_S12288x4096 : S12288x512x8.ShapeCasts S12288x4096
  bcast_S12288x32_S12288x32x128_0_1 : S12288x32.BroadcastsInDim S12288x32x128 (![0, 1] : Fin 2 → Fin S12288x32x128.rank)
  shapeCasts_S12288x32x128_S12288x4096 : S12288x32x128.ShapeCasts S12288x4096
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  dot_S4096x4096_S12288x4096_S4096x12288_1_1_0_0_n_n_wf : DotDims.WF S4096x4096 S12288x4096 S4096x12288 [1] [1] [0] [0] [] []

variable [Facts₀]

def dot_S4096x4096_S12288x4096_S4096x12288_1_1_0_0_n_n : DotDims S4096x4096 S12288x4096 S4096x12288 where
  lhsContracting := [1]
  rhsContracting := [1]
  lhsNonContracting := [0]
  rhsNonContracting := [0]
  lhsBatch := []
  rhsBatch := []
  wf := dot_S4096x4096_S12288x4096_S4096x12288_1_1_0_0_n_n_wf

class Facts : Prop extends Facts₀ where

variable [Facts]
-- ==== Proof.K.Cases.lean ====
/-
  The grid of the dequantize-and-multiply kernel is 12 weight slabs (outer) by 8 activation tiles (inner), visited
  slab by slab: point `t` works on slab `t / 8` and tile `t % 8`. At the first tile of a slab (`t % 8 = 0`) the body
  dequantizes the slab into its scratch buffer while multiplying; at the seven later tiles it multiplies against the
  slab the scratch still holds. This module decides which points are which, says that no window is ever idle, and
  restates the region's invariant as: the scratch buffer at some contents, and the generator register.
-/
import proofs.«415939_j63342177681749_3_alg».proof.Proof.Gen.Kernel.Frame
import proofs.«415939_j63342177681749_3_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch: this point is the first tile of its weight slab. -/
abbrev SlabStart (i : grid0.Coords) : Prop := k0_cond1 i = 1#1
/-- The body's second branch: this point is a later tile of its weight slab. -/
abbrev SlabReuse (i : grid0.Coords) : Prop := k0_cond2 i = 1#1

/-- The first tile of a slab is every eighth point. -/
theorem slabStart_iff : ∀ t : Fin cfg0.N, SlabStart (grid0.coords t) ↔ t.val % 8 = 0 :=
  (by decide +kernel : ∀ t : Fin grid0.N, SlabStart (grid0.coords t) ↔ t.val % 8 = 0)
/-- The later tiles are all the other points. -/
theorem slabReuse_iff : ∀ t : Fin cfg0.N, SlabReuse (grid0.coords t) ↔ ¬ t.val % 8 = 0 :=
  (by decide +kernel : ∀ t : Fin grid0.N, SlabReuse (grid0.coords t) ↔ ¬ t.val % 8 = 0)

/-- Every point stores the output block: the output window is never idle. -/
theorem out_live : ∀ t : Fin cfg0.N, cfg0.idle 4 (grid0.coords t) = false :=
  (by decide +kernel : ∀ t : Fin grid0.N, cfg0.idle 4 (grid0.coords t) = false)

/-- The staging memrefs the pipeline hands the body at point `t`, and that each is a whole buffer. -/
abbrev xM (t : Fin cfg0.N) : Memref sig .tc .vmem S512x4096 .bf16 := win0_0.stage (cfg0.slots t 0)
abbrev xM_whole (t : Fin cfg0.N) : (xM t).IsWhole := hstage0_0 ((cfg0.slots t 0).cast nbuf0_0)
abbrev qM (t : Fin cfg0.N) : Memref sig .tc .vmem S1024x512 .i32 := win0_1.stage (cfg0.slots t 1)
abbrev qM_whole (t : Fin cfg0.N) : (qM t).IsWhole := hstage0_1 ((cfg0.slots t 1).cast nbuf0_1)
abbrev sM (t : Fin cfg0.N) : Memref sig .tc .vmem S1024x512 .f32 := win0_2.stage (cfg0.slots t 2)
abbrev sM_whole (t : Fin cfg0.N) : (sM t).IsWhole := hstage0_2 ((cfg0.slots t 2).cast nbuf0_2)
abbrev bM (t : Fin cfg0.N) : Memref sig .tc .vmem S1x1024 .f32 := win0_3.stage (cfg0.slots t 3)
abbrev bM_whole (t : Fin cfg0.N) : (bM t).IsWhole := hstage0_3 ((cfg0.slots t 3).cast nbuf0_3)
abbrev oM (t : Fin cfg0.N) : Memref sig .tc .vmem S512x1024 .f32 := win0_4.stage (cfg0.slots t 4)
abbrev oM_whole (t : Fin cfg0.N) : (oM t).IsWhole := hstage0_4 ((cfg0.slots t 4).cast nbuf0_4)
/-- The scratch buffer that holds the dequantized slab. -/
abbrev slabM : Memref sig .tc .vmem S1024x4096 .bf16 := Memref.whole cc0_scratch0
/-- Views through which the output block's and the slab's contents are stated. -/
abbrev oV : View sig .tc .vmem S512x1024 .f32 := (Memref.whole cc0_stg4_0 : Memref sig .tc .vmem S512x1024 .f32).view
abbrev slabV : View sig .tc .vmem S1024x4096 .bf16 := slabM.view

/-- What the region lends the body besides the windows: the scratch buffer at some contents and the generator register. -/
theorem classInv_eq (c : Dev nD) :
    (Pipeline.ΦA spec0 c : sProp 𝕄)
      = iprop(iprop((∃ d, owns (c : Thread nD τ) slabM fullShare d)) ∗ (∃ r, prngReg c r)) := by
  unfold Pipeline.ΦA; rw [scopedRest0_eq]; simp only [slabM, owns_whole]; try rfl

end Cert.Kernel.Body

end
-- ==== Proof.K.RunStart.lean ====
/-
  The body at the FIRST tile of a weight slab (`t % 8 = 0`): it loads the packed words and the scales of the slab and
  the bias row, seeds the output block with the bias row, and then, for each of the eight nibble positions in turn,
  dequantizes that position's 1024 x 512 part of the slab (shift, mask, convert, scale), stores it into its columns of
  the scratch buffer, and adds to the output block the activation tile's matching 512 columns times that part. The
  eight stores tile the scratch buffer; every store of the output block is whole. What is left in the two buffers is
  recorded as the lists of pieces written.
-/
import proofs.«415939_j63342177681749_3_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the first tile of a slab: from the activation tile `x0`, the slab's packed words `x1` and scales `x2`, the
    bias row `x3`, the output buffer and the scratch at anything, the body runs to its end holding the inputs as they
    were, the output buffer with the pieces `L` written and the scratch with the pieces `LS` written. -/
noncomputable def runStart (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) :
    Σ' (L : List (View.Piece (Elt F) S512x1024 .f32)), { LS : List (View.Piece (Elt F) S1024x4096 .bf16) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__awq_kernel i arg2 harg2 arg3 harg3 arg4 harg4 arg5 harg5 arg6 harg6 arg7 harg7) K } := by
  refine ⟨?_, ?_, fun E K => ?run⟩
  case run =>
    simp only [cc0__awq_kernel_eq_skeleton]; unfold cc0__awq_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1
    obtain rfl := harg4.eq_unread hf2; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Body

end
-- ==== Proof.K.RunReuse.lean ====
/-
  The body at a LATER tile of a weight slab (`t % 8 ≠ 0`): it loads the activation tile, the whole dequantized slab
  the scratch buffer still holds and the bias row, and stores the output block once, whole: the tile times the slab
  (contracted over the 4096 columns) plus the bias row. The scratch buffer and the inputs are left as found. The
  stored block is recorded as the list of pieces written into the output's staging buffer.
-/
import proofs.«415939_j63342177681749_3_alg».proof.Proof.K.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a later tile: from the activation tile `x0`, the bias row `x3`, the output buffer at anything and the scratch
    at `xs`, the body runs to its end holding the same, the output buffer with the pieces `L` written. -/
noncomputable def runReuse (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : ¬SlabStart i) (h2 : SlabReuse i)
    (x0 : Vec F S512x4096 .bf16) (x3 : Vec F S1x1024 .f32) (xs : Vec F S1024x4096 .bf16) :
    { L : List (View.Piece (Elt F) S512x1024 .f32) //
      ∀ (E : Set ℕ) (K : PUnit → sProp 𝕄),
        iprop(owns (c : Thread nD τ) arg2 fullShare x0 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg5 fullShare x3
                ∗ (∃ f, arg6.view.loc (c : Thread nD τ) ↦[arg6.view.set]{fullShare} arg6.view.writes (Elt F) f L)
                ∗ owns (c : Thread nD τ) arg7 fullShare xs) -∗ K ⟨⟩))
          ⊢ wp frame (wpE (defs₀ (F := F)) Variants.none c none) E
              (cc0__awq_kernel i arg2 harg2 arg3 harg3 arg4 harg4 arg5 harg5 arg6 harg6 arg7 harg7) K } := by
  refine ⟨?_, fun E K => ?run⟩
  case run =>
    simp only [cc0__awq_kernel_eq_skeleton]; unfold cc0__awq_kernel_skel
    unfold owns
    iintro ⟨⟨%f0, %hf0, H0⟩, ⟨%f3, %hf3, H3⟩, ⟨%d4, %f4, -, H4⟩, ⟨%fs, %hfs, HS⟩, Hk⟩
    obtain rfl := harg2.eq_unread hf0; obtain rfl := harg5.eq_unread hf3; obtain rfl := harg7.eq_unread hfs
    sl_exec (disch := first | exact h1 | exact h2)
    sl_step
    iapply Hk
    isplitl [H0]
    · iexists _; isplitr; · ipureintro; exact harg2.read_unread _
      iexact H0
    isplitl [H3]
    · iexists _; isplitr; · ipureintro; exact harg5.read_unread _
      iexact H3
    isplitl [H4]; · iexists _; iexact H4
    iexists _; isplitr; · ipureintro; exact harg7.read_unread _
    iexact HS

end Cert.Kernel.Body

end
-- ==== Proof.K.Frame.lean ====
/-
  The frame of the dequantize-and-multiply kernel: what the output's staging buffer and the scratch slab hold after
  each grid point, the proof data of the pipeline, the body's obligation at every point, and the run of the whole
  program. After a slab's first tile (`t % 8 = 0`) the two buffers hold what that point's stores left; after a later
  tile the output buffer holds that point's one store, computed from the slab the point before left, and the slab is
  the one the point before left. The region's invariant carries the slab from point to point.
-/
import proofs.«415939_j63342177681749_3_alg».proof.Proof.K.RunStart
import proofs.«415939_j63342177681749_3_alg».proof.Proof.K.RunReuse

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves, as the pieces it wrote read back -/

/-- The output block a slab's first tile leaves. -/
def outStart (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) : Vec F S512x1024 .f32 :=
  oV.read (Elt F) (oV.writes (Elt F) oV.junk (runStart c i arg2 harg2 arg3 harg3 arg4 harg4 arg5 harg5 arg6 harg6 arg7 harg7 h1 h2 x0 x1 x2 x3).1)

/-- The slab a slab's first tile leaves in the scratch buffer. -/
def slabStart (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) : Vec F S1024x4096 .bf16 :=
  slabV.read (Elt F) (slabV.writes (Elt F) slabV.junk (runStart c i arg2 harg2 arg3 harg3 arg4 harg4 arg5 harg5 arg6 harg6 arg7 harg7 h1 h2 x0 x1 x2 x3).2.1)

/-- The output block a later tile leaves. -/
def outReuse (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : ¬SlabStart i) (h2 : SlabReuse i)
    (x0 : Vec F S512x4096 .bf16) (x3 : Vec F S1x1024 .f32) (xs : Vec F S1024x4096 .bf16) : Vec F S512x1024 .f32 :=
  oV.read (Elt F) (oV.writes (Elt F) oV.junk (runReuse c i arg2 harg2 arg3 harg3 arg4 harg4 arg5 harg5 arg6 harg6 arg7 harg7 h1 h2 x0 x3 xs).1)

/-- The first tile's stores of the output block are whole, so they cover it. -/
theorem outStart_cover (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) (y : S512x1024.Idx) :
    ∃ pc ∈ (runStart c i arg2 harg2 arg3 harg3 arg4 harg4 arg5 harg5 arg6 harg6 arg7 harg7 h1 h2 x0 x1 x2 x3).1, y ∈ pc.1.set :=
  View.cover_of_tiledL (runStart c i arg2 harg2 arg3 harg3 arg4 harg4 arg5 harg5 arg6 harg6 arg7 harg7 h1 h2 x0 x1 x2 x3).1 S512x1024.size (by sl_kernel_rfl) y

/-- The first tile's eight stores into the scratch buffer, each 1024 x 512 at its own columns, tile it. -/
theorem slabStart_cover (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) (y : S1024x4096.Idx) :
    ∃ pc ∈ (runStart c i arg2 harg2 arg3 harg3 arg4 harg4 arg5 harg5 arg6 harg6 arg7 harg7 h1 h2 x0 x1 x2 x3).2.1, y ∈ pc.1.set :=
  View.cover_of_tiledL (runStart c i arg2 harg2 arg3 harg3 arg4 harg4 arg5 harg5 arg6 harg6 arg7 harg7 h1 h2 x0 x1 x2 x3).2.1 S1024x512.size (by sl_kernel_rfl) y

/-- A later tile's one store of the output block is whole. -/
theorem outReuse_cover (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : ¬SlabStart i) (h2 : SlabReuse i)
    (x0 : Vec F S512x4096 .bf16) (x3 : Vec F S1x1024 .f32) (xs : Vec F S1024x4096 .bf16) (y : S512x1024.Idx) :
    ∃ pc ∈ (runReuse c i arg2 harg2 arg3 harg3 arg4 harg4 arg5 harg5 arg6 harg6 arg7 harg7 h1 h2 x0 x3 xs).1, y ∈ pc.1.set :=
  View.cover_of_tiledL (runReuse c i arg2 harg2 arg3 harg3 arg4 harg4 arg5 harg5 arg6 harg6 arg7 harg7 h1 h2 x0 x3 xs).1 S512x1024.size (by sl_kernel_rfl) y

/-! ## The two buffers point by point -/

/-- What a slab's first tile, at point `t`, leaves in the output buffer and in the scratch, from the point's blocks. -/
def startAt (c : Dev nD) (t : Fin cfg0.N) (h0 : t.val % 8 = 0) : Vec F S512x1024 .f32 × Vec F S1024x4096 .bf16 :=
  (outStart c (grid0.coords t) (xM t) (xM_whole t) (qM t) (qM_whole t) (sM t) (sM_whole t) (bM t) (bM_whole t) (oM t) (oM_whole t) slabM (Memref.isWhole_whole _)
      ((slabStart_iff t).mpr h0) (fun h => (slabReuse_iff t).mp h h0) (iblk m c 0 t) (iblk m c 1 t) (iblk m c 2 t) (iblk m c 3 t),
   slabStart c (grid0.coords t) (xM t) (xM_whole t) (qM t) (qM_whole t) (sM t) (sM_whole t) (bM t) (bM_whole t) (oM t) (oM_whole t) slabM (Memref.isWhole_whole _)
      ((slabStart_iff t).mpr h0) (fun h => (slabReuse_iff t).mp h h0) (iblk m c 0 t) (iblk m c 1 t) (iblk m c 2 t) (iblk m c 3 t))

/-- What a later tile, at point `t`, leaves, from the point's blocks and the slab `xs` it found. -/
def reuseAt (c : Dev nD) (t : Fin cfg0.N) (h0 : ¬t.val % 8 = 0) (xs : Vec F S1024x4096 .bf16) : Vec F S512x1024 .f32 × Vec F S1024x4096 .bf16 :=
  (outReuse c (grid0.coords t) (xM t) (xM_whole t) (qM t) (qM_whole t) (sM t) (sM_whole t) (bM t) (bM_whole t) (oM t) (oM_whole t) slabM (Memref.isWhole_whole _)
      (fun h => h0 ((slabStart_iff t).mp h)) ((slabReuse_iff t).mpr h0) (iblk m c 0 t) (iblk m c 3 t) xs,
   xs)

/-- The output buffer and the slab after the body at position `n`, by recursion on the position. -/
def stateAt (c : Dev nD) : (n : ℕ) → n < cfg0.N → Vec F S512x1024 .f32 × Vec F S1024x4096 .bf16
  | 0, hn => startAt m c ⟨0, hn⟩ (Nat.zero_mod _)
  | n + 1, hn =>
    if h0 : (n + 1) % 8 = 0 then startAt m c ⟨n + 1, hn⟩ h0
    else reuseAt m c ⟨n + 1, hn⟩ h0 (stateAt c n (Nat.lt_of_succ_lt hn)).2

theorem stateAt_start (c : Dev nD) (t : Fin cfg0.N) (h0 : t.val % 8 = 0) :
    stateAt m c t.val t.isLt = startAt m c t h0 := by
  obtain ⟨n, hn⟩ := t
  cases n with
  | zero => rfl
  | succ n => exact dif_pos h0

theorem stateAt_reuse (c : Dev nD) (t : Fin cfg0.N) (h0 : ¬t.val % 8 = 0) :
    stateAt m c t.val t.isLt = reuseAt m c t h0 (stateAt m c (t.val - 1) (Nat.lt_of_le_of_lt (Nat.sub_le _ _) t.isLt)).2 := by
  obtain ⟨n, hn⟩ := t
  cases n with
  | zero => exact absurd (Nat.zero_mod _) h0
  | succ n => exact dif_neg h0

/-- The region's invariant before position `n`: before the first point the scratch holds anything; afterwards it holds
    the slab the point before left. The generator register is at some state throughout. -/
def slabInv (c : Dev nD) : (n : ℕ) → n ≤ cfg0.N → sProp 𝕄
  | 0, _ => Pipeline.ΦA spec0 c
  | n + 1, hn => iprop(iprop(owns (c : Thread nD τ) slabM fullShare ((stateAt m c n hn).2)) ∗ (∃ r, prngReg c r))

theorem slabInv_succ (c : Dev nD) (n : ℕ) (hn : n < cfg0.N) :
    slabInv m c (n + 1) hn = iprop(iprop(owns (c : Thread nD τ) slabM fullShare ((stateAt m c n hn).2)) ∗ (∃ r, prngReg c r)) := rfl

theorem slabInv_pos (c : Dev nD) (n : ℕ) (h : n ≤ cfg0.N) (hz : n ≠ 0) :
    slabInv m c n h = iprop(iprop(owns (c : Thread nD τ) slabM fullShare ((stateAt m c (n - 1) (by omega)).2)) ∗ (∃ r, prngReg c r)) := by
  cases n with
  | zero => exact absurd rfl hz
  | succ n => rfl

/-- At any position the invariant yields the scratch at SOME contents. -/
theorem slabInv_any (c : Dev nD) (n : ℕ) (h : n ≤ cfg0.N) :
    slabInv m c n h ⊢ iprop(iprop((∃ d, owns (c : Thread nD τ) slabM fullShare d)) ∗ (∃ r, prngReg c r)) := by
  cases n with
  | zero => rw [show slabInv m c 0 h = Pipeline.ΦA spec0 c from rfl, classInv_eq]; try exact Idealize.SL.BI.Entails.refl _
  | succ n =>
    rw [slabInv_succ]
    iintro ⟨HS, Hg⟩
    isplitl [HS]
    · iexists _; iexact HS
    iexact Hg

/-! ## The proof data -/

/-- The pipeline's proof data on core `c`: the arrays as the region finds them; after the body each input's buffer
    at its block and the output's at `stateAt`; the invariant `slabInv`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).1
  Φ t := slabInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = slabInv m c t.val (Nat.le_of_lt t.isLt) := by
  dsimp only [dats]; simp only [Fin.coe_castSucc]

theorem after_x (c : Dev nD) (t : Fin cfg0.N) : (dats m 0 c).after 0 t = iblk m c 0 t := by dsimp only [dats]
theorem after_q (c : Dev nD) (t : Fin cfg0.N) : (dats m 0 c).after 1 t = iblk m c 1 t := by dsimp only [dats]
theorem after_s (c : Dev nD) (t : Fin cfg0.N) : (dats m 0 c).after 2 t = iblk m c 2 t := by dsimp only [dats]
theorem after_b (c : Dev nD) (t : Fin cfg0.N) : (dats m 0 c).after 3 t = iblk m c 3 t := by dsimp only [dats]
theorem after_o (c : Dev nD) (t : Fin cfg0.N) : (dats m 0 c).after 4 t = (stateAt m c t.val t.isLt).1 := by dsimp only [dats]

theorem before_x (c : Dev nD) (t : Fin cfg0.N) (d) : (dats m 0 c).before 0 t d = iblk m c 0 t :=
  before0_0_of m (dats m 0 c) (A_eq m c 0) (after_x m c) t d
theorem before_q (c : Dev nD) (t : Fin cfg0.N) (d) : (dats m 0 c).before 1 t d = iblk m c 1 t :=
  before0_1_of m (dats m 0 c) (A_eq m c 1) (after_q m c) t d
theorem before_s (c : Dev nD) (t : Fin cfg0.N) (d) : (dats m 0 c).before 2 t d = iblk m c 2 t :=
  before0_2_of m (dats m 0 c) (A_eq m c 2) (after_s m c) t d
theorem before_b (c : Dev nD) (t : Fin cfg0.N) (d) : (dats m 0 c).before 3 t d = iblk m c 3 t :=
  before0_3_of m (dats m 0 c) (A_eq m c 3) (after_b m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (qM t) fullShare ((dats m 0 c).before 1 t d))
    ∗ (∃ d, owns (c : Thread nD τ) (sM t) fullShare ((dats m 0 c).before 2 t d))
    ∗ (∃ d, owns (c : Thread nD τ) (bM t) fullShare ((dats m 0 c).before 3 t d))
    ∗ (∃ d, owns (c : Thread nD τ) (oM t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_x (c : Dev nD) (t : Fin cfg0.N) : (dats m 0 c).leavesExact 0 t = owns (c : Thread nD τ) (xM t) fullShare (iblk m c 0 t) := by
  unfold Dat.leavesExact; rw [show cfg0.idle 0 (grid0.coords t) = false from rfl, after_x]; try rfl
theorem leaves_q (c : Dev nD) (t : Fin cfg0.N) : (dats m 0 c).leavesExact 1 t = owns (c : Thread nD τ) (qM t) fullShare (iblk m c 1 t) := by
  unfold Dat.leavesExact; rw [show cfg0.idle 1 (grid0.coords t) = false from rfl, after_q]; try rfl
theorem leaves_s (c : Dev nD) (t : Fin cfg0.N) : (dats m 0 c).leavesExact 2 t = owns (c : Thread nD τ) (sM t) fullShare (iblk m c 2 t) := by
  unfold Dat.leavesExact; rw [show cfg0.idle 2 (grid0.coords t) = false from rfl, after_s]; try rfl
theorem leaves_b (c : Dev nD) (t : Fin cfg0.N) : (dats m 0 c).leavesExact 3 t = owns (c : Thread nD τ) (bM t) fullShare (iblk m c 3 t) := by
  unfold Dat.leavesExact; rw [show cfg0.idle 3 (grid0.coords t) = false from rfl, after_b]; try rfl
theorem leaves_o (c : Dev nD) (t : Fin cfg0.N) : (dats m 0 c).leavesExact 4 t = owns (c : Thread nD τ) (oM t) fullShare ((stateAt m c t.val t.isLt).1) := by
  unfold Dat.leavesExact; rw [out_live t, after_o]; try rfl

set_option maxHeartbeats 4000000 in
/-- The body at any point: the inputs' buffers hold their blocks; at a slab's first tile the scratch is handed over at
    whatever it holds and taken back at the slab just written; at a later tile it is handed over at the slab the point
    before left and taken back unchanged; the output buffer is taken back at the point's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_q, before_s, before_b]
  rw [show (dats m 0 c).owesAt () t.succ = (dats m 0 c).owesAt () t.castSucc from rfl]
  rw [show (dats m 0 c).Φ t.succ = slabInv m c (t.val + 1) t.isLt from rfl, slabInv_succ]
  rw [leaves_x, leaves_q, leaves_s, leaves_b, leaves_o, inv_castSucc m c t]
  by_cases h0 : t.val % 8 = 0
  · rw [stateAt_start m c t h0]
    unfold startAt outStart slabStart; (try dsimp only)
    iintro ⟨Hinv, Ho, ⟨%d0, H0⟩, ⟨%d1, H1⟩, ⟨%d2, H2⟩, ⟨%d3, H3⟩, ⟨%d4, H4⟩⟩
    ihave Hinv' := (slabInv_any m c _ _) $$ Hinv
    icases Hinv' with ⟨HS, Hg⟩
    iapply ((runStart c (grid0.coords t) _ _ _ _ _ _ _ _ _ _ _ _ ((slabStart_iff t).mpr h0) (fun h => (slabReuse_iff t).mp h h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (slabStart_cover c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (outStart_cover c _ _ _ _ _ _ _ _ _ _ _ _ _ _ _ _ _ _ _)
  · have hz : t.val ≠ 0 := fun h => h0 (by rw [h])
    rw [stateAt_reuse m c t h0, slabInv_pos m c _ _ hz]
    unfold reuseAt outReuse; (try dsimp only)
    iintro ⟨⟨HS, Hg⟩, Ho, ⟨%d0, H0⟩, ⟨%d1, H1⟩, ⟨%d2, H2⟩, ⟨%d3, H3⟩, ⟨%d4, H4⟩⟩
    iapply ((runReuse c (grid0.coords t) _ _ _ _ _ _ _ _ _ _ _ _ (fun h => h0 ((slabStart_iff t).mp h)) ((slabReuse_iff t).mpr h0) (iblk m c 0 t) (iblk m c 3 t) _).2 Set.univ _)
    isplitl [H0]; · iexact H0
    isplitl [H3]; · iexact H3
    isplitl [H4]; · iexists _; iexact H4
    isplitl [HS]; · iexact HS
    iintro ⟨H0, H3, ⟨%e4, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (outReuse_cover c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- Entering the region, the scratch holds anything: the invariant before the first point. -/
theorem inv_in (c : Dev nD) : Pipeline.ΦA spec0 c ⊢ (dats m 0 c).Φ 0 := by
  rw [show (dats m 0 c).Φ 0 = Pipeline.ΦA spec0 c from rfl]
  try exact Idealize.SL.BI.Entails.refl _

/-- Leaving it, the slab's contents are forgotten. -/
theorem inv_out (c : Dev nD) : (dats m 0 c).Φ (Fin.last cfg0.N) ⊢ Pipeline.ΦA spec0 c := by
  rw [show (dats m 0 c).Φ (Fin.last cfg0.N) = slabInv m c (Fin.last cfg0.N).val (Nat.le_of_lt_succ (Fin.last cfg0.N).isLt) from rfl, classInv_eq]
  exact slabInv_any m c _ _

/-! ## The run and the frame -/

set_option backward.isDefEq.respectTransparency.types false in
/-- Every weakly fair execution of the program terminates without a fault, every array of the pipeline ending at what
    the library computes from the proof data and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := inv_in m) (hout := inv_out m)

/-- The frame claim's statement at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Cases.lean ====
/-
  The grid of the dequantize-and-multiply kernel is 12 weight slabs (outer) by 8 activation tiles (inner), visited
  slab by slab: point `t` works on slab `t / 8` and tile `t % 8`. At the first tile of a slab (`t % 8 = 0`) the body
  dequantizes the slab into its scratch buffer while multiplying; at the seven later tiles it multiplies against the
  slab the scratch still holds. This module decides which points are which, says that no window is ever idle, and
  restates the region's invariant as: the scratch buffer at some contents, and the generator register.
-/
import proofs.«415939_j63342177681749_3_alg».proof.Proof.Gen.KernelIdeal.Frame
import proofs.«415939_j63342177681749_3_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch: this point is the first tile of its weight slab. -/
abbrev SlabStart (i : grid0.Coords) : Prop := k0_cond1 i = 1#1
/-- The body's second branch: this point is a later tile of its weight slab. -/
abbrev SlabReuse (i : grid0.Coords) : Prop := k0_cond2 i = 1#1

/-- The first tile of a slab is every eighth point. -/
theorem slabStart_iff : ∀ t : Fin cfg0.N, SlabStart (grid0.coords t) ↔ t.val % 8 = 0 :=
  (by decide +kernel : ∀ t : Fin grid0.N, SlabStart (grid0.coords t) ↔ t.val % 8 = 0)
/-- The later tiles are all the other points. -/
theorem slabReuse_iff : ∀ t : Fin cfg0.N, SlabReuse (grid0.coords t) ↔ ¬ t.val % 8 = 0 :=
  (by decide +kernel : ∀ t : Fin grid0.N, SlabReuse (grid0.coords t) ↔ ¬ t.val % 8 = 0)

/-- Every point stores the output block: the output window is never idle. -/
theorem out_live : ∀ t : Fin cfg0.N, cfg0.idle 4 (grid0.coords t) = false :=
  (by decide +kernel : ∀ t : Fin grid0.N, cfg0.idle 4 (grid0.coords t) = false)

/-- The staging memrefs the pipeline hands the body at point `t`, and that each is a whole buffer. -/
abbrev xM (t : Fin cfg0.N) : Memref sig .tc .vmem S512x4096 .bf16 := win0_0.stage (cfg0.slots t 0)
abbrev xM_whole (t : Fin cfg0.N) : (xM t).IsWhole := hstage0_0 ((cfg0.slots t 0).cast nbuf0_0)
abbrev qM (t : Fin cfg0.N) : Memref sig .tc .vmem S1024x512 .i32 := win0_1.stage (cfg0.slots t 1)
abbrev qM_whole (t : Fin cfg0.N) : (qM t).IsWhole := hstage0_1 ((cfg0.slots t 1).cast nbuf0_1)
abbrev sM (t : Fin cfg0.N) : Memref sig .tc .vmem S1024x512 .f32 := win0_2.stage (cfg0.slots t 2)
abbrev sM_whole (t : Fin cfg0.N) : (sM t).IsWhole := hstage0_2 ((cfg0.slots t 2).cast nbuf0_2)
abbrev bM (t : Fin cfg0.N) : Memref sig .tc .vmem S1x1024 .f32 := win0_3.stage (cfg0.slots t 3)
abbrev bM_whole (t : Fin cfg0.N) : (bM t).IsWhole := hstage0_3 ((cfg0.slots t 3).cast nbuf0_3)
abbrev oM (t : Fin cfg0.N) : Memref sig .tc .vmem S512x1024 .f32 := win0_4.stage (cfg0.slots t 4)
abbrev oM_whole (t : Fin cfg0.N) : (oM t).IsWhole := hstage0_4 ((cfg0.slots t 4).cast nbuf0_4)
/-- The scratch buffer that holds the dequantized slab. -/
abbrev slabM : Memref sig .tc .vmem S1024x4096 .bf16 := Memref.whole cc0_scratch0
/-- Views through which the output block's and the slab's contents are stated. -/
abbrev oV : View sig .tc .vmem S512x1024 .f32 := (Memref.whole cc0_stg4_0 : Memref sig .tc .vmem S512x1024 .f32).view
abbrev slabV : View sig .tc .vmem S1024x4096 .bf16 := slabM.view

/-- What the region lends the body besides the windows: the scratch buffer at some contents and the generator register. -/
theorem classInv_eq (c : Dev nD) :
    (Pipeline.ΦA spec0 c : sProp 𝕄)
      = iprop(iprop((∃ d, owns (c : Thread nD τ) slabM fullShare d)) ∗ (∃ r, prngReg c r)) := by
  unfold Pipeline.ΦA; rw [scopedRest0_eq]; simp only [slabM, owns_whole]; try rfl

end Cert.KernelIdeal.Body

end
-- ==== Proof.KI.RunStart.lean ====
/-
  The body at the FIRST tile of a weight slab (`t % 8 = 0`): it loads the packed words and the scales of the slab and
  the bias row, seeds the output block with the bias row, and then, for each of the eight nibble positions in turn,
  dequantizes that position's 1024 x 512 part of the slab (shift, mask, convert, scale), stores it into its columns of
  the scratch buffer, and adds to the output block the activation tile's matching 512 columns times that part. The
  eight stores tile the scratch buffer; every store of the output block is whole. What is left in the two buffers is
  recorded as the lists of pieces written.
-/
import proofs.«415939_j63342177681749_3_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the first tile of a slab: from the activation tile `x0`, the slab's packed words `x1` and scales `x2`, the
    bias row `x3`, the output buffer and the scratch at anything, the body runs to its end holding the inputs as they
    were, the output buffer with the pieces `L` written and the scratch with the pieces `LS` written. -/
noncomputable def runStart (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) :
    Σ' (L : List (View.Piece (Elt F) S512x1024 .f32)), { LS : List (View.Piece (Elt F) S1024x4096 .bf16) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__awq_kernel i arg2 harg2 arg3 harg3 arg4 harg4 arg5 harg5 arg6 harg6 arg7 harg7) K } := by
  refine ⟨?_, ?_, fun E K => ?run⟩
  case run =>
    simp only [cc0__awq_kernel_eq_skeleton]; unfold cc0__awq_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg2.eq_unread hf0; obtain rfl := harg3.eq_unread hf1
    obtain rfl := harg4.eq_unread hf2; obtain rfl := harg5.eq_unread hf3
    sl_exec (disch := first | exact h1 | exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Body

end
-- ==== Proof.KI.RunReuse.lean ====
/-
  The body at a LATER tile of a weight slab (`t % 8 ≠ 0`): it loads the activation tile, the whole dequantized slab
  the scratch buffer still holds and the bias row, and stores the output block once, whole: the tile times the slab
  (contracted over the 4096 columns) plus the bias row. The scratch buffer and the inputs are left as found. The
  stored block is recorded as the list of pieces written into the output's staging buffer.
-/
import proofs.«415939_j63342177681749_3_alg».proof.Proof.KI.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a later tile: from the activation tile `x0`, the bias row `x3`, the output buffer at anything and the scratch
    at `xs`, the body runs to its end holding the same, the output buffer with the pieces `L` written. -/
noncomputable def runReuse (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : ¬SlabStart i) (h2 : SlabReuse i)
    (x0 : Vec F S512x4096 .bf16) (x3 : Vec F S1x1024 .f32) (xs : Vec F S1024x4096 .bf16) :
    { L : List (View.Piece (Elt F) S512x1024 .f32) //
      ∀ (E : Set ℕ) (K : PUnit → sProp 𝕄),
        iprop(owns (c : Thread nD τ) arg2 fullShare x0 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg5 fullShare x3
                ∗ (∃ f, arg6.view.loc (c : Thread nD τ) ↦[arg6.view.set]{fullShare} arg6.view.writes (Elt F) f L)
                ∗ owns (c : Thread nD τ) arg7 fullShare xs) -∗ K ⟨⟩))
          ⊢ wp frame (wpE (defs₀ (F := F)) Variants.none c none) E
              (cc0__awq_kernel i arg2 harg2 arg3 harg3 arg4 harg4 arg5 harg5 arg6 harg6 arg7 harg7) K } := by
  refine ⟨?_, fun E K => ?run⟩
  case run =>
    simp only [cc0__awq_kernel_eq_skeleton]; unfold cc0__awq_kernel_skel
    unfold owns
    iintro ⟨⟨%f0, %hf0, H0⟩, ⟨%f3, %hf3, H3⟩, ⟨%d4, %f4, -, H4⟩, ⟨%fs, %hfs, HS⟩, Hk⟩
    obtain rfl := harg2.eq_unread hf0; obtain rfl := harg5.eq_unread hf3; obtain rfl := harg7.eq_unread hfs
    sl_exec (disch := first | exact h1 | exact h2)
    sl_step
    iapply Hk
    isplitl [H0]
    · iexists _; isplitr; · ipureintro; exact harg2.read_unread _
      iexact H0
    isplitl [H3]
    · iexists _; isplitr; · ipureintro; exact harg5.read_unread _
      iexact H3
    isplitl [H4]; · iexists _; iexact H4
    iexists _; isplitr; · ipureintro; exact harg7.read_unread _
    iexact HS

end Cert.KernelIdeal.Body

end
-- ==== Proof.KI.Frame.lean ====
/-
  The frame of the dequantize-and-multiply kernel: what the output's staging buffer and the scratch slab hold after
  each grid point, the proof data of the pipeline, the body's obligation at every point, and the run of the whole
  program. After a slab's first tile (`t % 8 = 0`) the two buffers hold what that point's stores left; after a later
  tile the output buffer holds that point's one store, computed from the slab the point before left, and the slab is
  the one the point before left. The region's invariant carries the slab from point to point.
-/
import proofs.«415939_j63342177681749_3_alg».proof.Proof.KI.RunStart
import proofs.«415939_j63342177681749_3_alg».proof.Proof.KI.RunReuse

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point leaves, as the pieces it wrote read back -/

/-- The output block a slab's first tile leaves. -/
def outStart (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) : Vec F S512x1024 .f32 :=
  oV.read (Elt F) (oV.writes (Elt F) oV.junk (runStart c i arg2 harg2 arg3 harg3 arg4 harg4 arg5 harg5 arg6 harg6 arg7 harg7 h1 h2 x0 x1 x2 x3).1)

/-- The slab a slab's first tile leaves in the scratch buffer. -/
def slabStart (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) : Vec F S1024x4096 .bf16 :=
  slabV.read (Elt F) (slabV.writes (Elt F) slabV.junk (runStart c i arg2 harg2 arg3 harg3 arg4 harg4 arg5 harg5 arg6 harg6 arg7 harg7 h1 h2 x0 x1 x2 x3).2.1)

/-- The output block a later tile leaves. -/
def outReuse (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : ¬SlabStart i) (h2 : SlabReuse i)
    (x0 : Vec F S512x4096 .bf16) (x3 : Vec F S1x1024 .f32) (xs : Vec F S1024x4096 .bf16) : Vec F S512x1024 .f32 :=
  oV.read (Elt F) (oV.writes (Elt F) oV.junk (runReuse c i arg2 harg2 arg3 harg3 arg4 harg4 arg5 harg5 arg6 harg6 arg7 harg7 h1 h2 x0 x3 xs).1)

/-- The first tile's stores of the output block are whole, so they cover it. -/
theorem outStart_cover (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) (y : S512x1024.Idx) :
    ∃ pc ∈ (runStart c i arg2 harg2 arg3 harg3 arg4 harg4 arg5 harg5 arg6 harg6 arg7 harg7 h1 h2 x0 x1 x2 x3).1, y ∈ pc.1.set :=
  View.cover_of_tiledL (runStart c i arg2 harg2 arg3 harg3 arg4 harg4 arg5 harg5 arg6 harg6 arg7 harg7 h1 h2 x0 x1 x2 x3).1 S512x1024.size (by sl_kernel_rfl) y

/-- The first tile's eight stores into the scratch buffer, each 1024 x 512 at its own columns, tile it. -/
theorem slabStart_cover (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) (y : S1024x4096.Idx) :
    ∃ pc ∈ (runStart c i arg2 harg2 arg3 harg3 arg4 harg4 arg5 harg5 arg6 harg6 arg7 harg7 h1 h2 x0 x1 x2 x3).2.1, y ∈ pc.1.set :=
  View.cover_of_tiledL (runStart c i arg2 harg2 arg3 harg3 arg4 harg4 arg5 harg5 arg6 harg6 arg7 harg7 h1 h2 x0 x1 x2 x3).2.1 S1024x512.size (by sl_kernel_rfl) y

/-- A later tile's one store of the output block is whole. -/
theorem outReuse_cover (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : ¬SlabStart i) (h2 : SlabReuse i)
    (x0 : Vec F S512x4096 .bf16) (x3 : Vec F S1x1024 .f32) (xs : Vec F S1024x4096 .bf16) (y : S512x1024.Idx) :
    ∃ pc ∈ (runReuse c i arg2 harg2 arg3 harg3 arg4 harg4 arg5 harg5 arg6 harg6 arg7 harg7 h1 h2 x0 x3 xs).1, y ∈ pc.1.set :=
  View.cover_of_tiledL (runReuse c i arg2 harg2 arg3 harg3 arg4 harg4 arg5 harg5 arg6 harg6 arg7 harg7 h1 h2 x0 x3 xs).1 S512x1024.size (by sl_kernel_rfl) y

/-! ## The two buffers point by point -/

/-- What a slab's first tile, at point `t`, leaves in the output buffer and in the scratch, from the point's blocks. -/
def startAt (c : Dev nD) (t : Fin cfg0.N) (h0 : t.val % 8 = 0) : Vec F S512x1024 .f32 × Vec F S1024x4096 .bf16 :=
  (outStart c (grid0.coords t) (xM t) (xM_whole t) (qM t) (qM_whole t) (sM t) (sM_whole t) (bM t) (bM_whole t) (oM t) (oM_whole t) slabM (Memref.isWhole_whole _)
      ((slabStart_iff t).mpr h0) (fun h => (slabReuse_iff t).mp h h0) (iblk m c 0 t) (iblk m c 1 t) (iblk m c 2 t) (iblk m c 3 t),
   slabStart c (grid0.coords t) (xM t) (xM_whole t) (qM t) (qM_whole t) (sM t) (sM_whole t) (bM t) (bM_whole t) (oM t) (oM_whole t) slabM (Memref.isWhole_whole _)
      ((slabStart_iff t).mpr h0) (fun h => (slabReuse_iff t).mp h h0) (iblk m c 0 t) (iblk m c 1 t) (iblk m c 2 t) (iblk m c 3 t))

/-- What a later tile, at point `t`, leaves, from the point's blocks and the slab `xs` it found. -/
def reuseAt (c : Dev nD) (t : Fin cfg0.N) (h0 : ¬t.val % 8 = 0) (xs : Vec F S1024x4096 .bf16) : Vec F S512x1024 .f32 × Vec F S1024x4096 .bf16 :=
  (outReuse c (grid0.coords t) (xM t) (xM_whole t) (qM t) (qM_whole t) (sM t) (sM_whole t) (bM t) (bM_whole t) (oM t) (oM_whole t) slabM (Memref.isWhole_whole _)
      (fun h => h0 ((slabStart_iff t).mp h)) ((slabReuse_iff t).mpr h0) (iblk m c 0 t) (iblk m c 3 t) xs,
   xs)

/-- The output buffer and the slab after the body at position `n`, by recursion on the position. -/
def stateAt (c : Dev nD) : (n : ℕ) → n < cfg0.N → Vec F S512x1024 .f32 × Vec F S1024x4096 .bf16
  | 0, hn => startAt m c ⟨0, hn⟩ (Nat.zero_mod _)
  | n + 1, hn =>
    if h0 : (n + 1) % 8 = 0 then startAt m c ⟨n + 1, hn⟩ h0
    else reuseAt m c ⟨n + 1, hn⟩ h0 (stateAt c n (Nat.lt_of_succ_lt hn)).2

theorem stateAt_start (c : Dev nD) (t : Fin cfg0.N) (h0 : t.val % 8 = 0) :
    stateAt m c t.val t.isLt = startAt m c t h0 := by
  obtain ⟨n, hn⟩ := t
  cases n with
  | zero => rfl
  | succ n => exact dif_pos h0

theorem stateAt_reuse (c : Dev nD) (t : Fin cfg0.N) (h0 : ¬t.val % 8 = 0) :
    stateAt m c t.val t.isLt = reuseAt m c t h0 (stateAt m c (t.val - 1) (Nat.lt_of_le_of_lt (Nat.sub_le _ _) t.isLt)).2 := by
  obtain ⟨n, hn⟩ := t
  cases n with
  | zero => exact absurd (Nat.zero_mod _) h0
  | succ n => exact dif_neg h0

/-- The region's invariant before position `n`: before the first point the scratch holds anything; afterwards it holds
    the slab the point before left. The generator register is at some state throughout. -/
def slabInv (c : Dev nD) : (n : ℕ) → n ≤ cfg0.N → sProp 𝕄
  | 0, _ => Pipeline.ΦA spec0 c
  | n + 1, hn => iprop(iprop(owns (c : Thread nD τ) slabM fullShare ((stateAt m c n hn).2)) ∗ (∃ r, prngReg c r))

theorem slabInv_succ (c : Dev nD) (n : ℕ) (hn : n < cfg0.N) :
    slabInv m c (n + 1) hn = iprop(iprop(owns (c : Thread nD τ) slabM fullShare ((stateAt m c n hn).2)) ∗ (∃ r, prngReg c r)) := rfl

theorem slabInv_pos (c : Dev nD) (n : ℕ) (h : n ≤ cfg0.N) (hz : n ≠ 0) :
    slabInv m c n h = iprop(iprop(owns (c : Thread nD τ) slabM fullShare ((stateAt m c (n - 1) (by omega)).2)) ∗ (∃ r, prngReg c r)) := by
  cases n with
  | zero => exact absurd rfl hz
  | succ n => rfl

/-- At any position the invariant yields the scratch at SOME contents. -/
theorem slabInv_any (c : Dev nD) (n : ℕ) (h : n ≤ cfg0.N) :
    slabInv m c n h ⊢ iprop(iprop((∃ d, owns (c : Thread nD τ) slabM fullShare d)) ∗ (∃ r, prngReg c r)) := by
  cases n with
  | zero => rw [show slabInv m c 0 h = Pipeline.ΦA spec0 c from rfl, classInv_eq]; try exact Idealize.SL.BI.Entails.refl _
  | succ n =>
    rw [slabInv_succ]
    iintro ⟨HS, Hg⟩
    isplitl [HS]
    · iexists _; iexact HS
    iexact Hg

/-! ## The proof data -/

/-- The pipeline's proof data on core `c`: the arrays as the region finds them; after the body each input's buffer
    at its block and the output's at `stateAt`; the invariant `slabInv`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (stateAt m c t.val t.isLt).1
  Φ t := slabInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = slabInv m c t.val (Nat.le_of_lt t.isLt) := by
  dsimp only [dats]; simp only [Fin.coe_castSucc]

theorem after_x (c : Dev nD) (t : Fin cfg0.N) : (dats m 0 c).after 0 t = iblk m c 0 t := by dsimp only [dats]
theorem after_q (c : Dev nD) (t : Fin cfg0.N) : (dats m 0 c).after 1 t = iblk m c 1 t := by dsimp only [dats]
theorem after_s (c : Dev nD) (t : Fin cfg0.N) : (dats m 0 c).after 2 t = iblk m c 2 t := by dsimp only [dats]
theorem after_b (c : Dev nD) (t : Fin cfg0.N) : (dats m 0 c).after 3 t = iblk m c 3 t := by dsimp only [dats]
theorem after_o (c : Dev nD) (t : Fin cfg0.N) : (dats m 0 c).after 4 t = (stateAt m c t.val t.isLt).1 := by dsimp only [dats]

theorem before_x (c : Dev nD) (t : Fin cfg0.N) (d) : (dats m 0 c).before 0 t d = iblk m c 0 t :=
  before0_0_of m (dats m 0 c) (A_eq m c 0) (after_x m c) t d
theorem before_q (c : Dev nD) (t : Fin cfg0.N) (d) : (dats m 0 c).before 1 t d = iblk m c 1 t :=
  before0_1_of m (dats m 0 c) (A_eq m c 1) (after_q m c) t d
theorem before_s (c : Dev nD) (t : Fin cfg0.N) (d) : (dats m 0 c).before 2 t d = iblk m c 2 t :=
  before0_2_of m (dats m 0 c) (A_eq m c 2) (after_s m c) t d
theorem before_b (c : Dev nD) (t : Fin cfg0.N) (d) : (dats m 0 c).before 3 t d = iblk m c 3 t :=
  before0_3_of m (dats m 0 c) (A_eq m c 3) (after_b m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (qM t) fullShare ((dats m 0 c).before 1 t d))
    ∗ (∃ d, owns (c : Thread nD τ) (sM t) fullShare ((dats m 0 c).before 2 t d))
    ∗ (∃ d, owns (c : Thread nD τ) (bM t) fullShare ((dats m 0 c).before 3 t d))
    ∗ (∃ d, owns (c : Thread nD τ) (oM t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_x (c : Dev nD) (t : Fin cfg0.N) : (dats m 0 c).leavesExact 0 t = owns (c : Thread nD τ) (xM t) fullShare (iblk m c 0 t) := by
  unfold Dat.leavesExact; rw [show cfg0.idle 0 (grid0.coords t) = false from rfl, after_x]; try rfl
theorem leaves_q (c : Dev nD) (t : Fin cfg0.N) : (dats m 0 c).leavesExact 1 t = owns (c : Thread nD τ) (qM t) fullShare (iblk m c 1 t) := by
  unfold Dat.leavesExact; rw [show cfg0.idle 1 (grid0.coords t) = false from rfl, after_q]; try rfl
theorem leaves_s (c : Dev nD) (t : Fin cfg0.N) : (dats m 0 c).leavesExact 2 t = owns (c : Thread nD τ) (sM t) fullShare (iblk m c 2 t) := by
  unfold Dat.leavesExact; rw [show cfg0.idle 2 (grid0.coords t) = false from rfl, after_s]; try rfl
theorem leaves_b (c : Dev nD) (t : Fin cfg0.N) : (dats m 0 c).leavesExact 3 t = owns (c : Thread nD τ) (bM t) fullShare (iblk m c 3 t) := by
  unfold Dat.leavesExact; rw [show cfg0.idle 3 (grid0.coords t) = false from rfl, after_b]; try rfl
theorem leaves_o (c : Dev nD) (t : Fin cfg0.N) : (dats m 0 c).leavesExact 4 t = owns (c : Thread nD τ) (oM t) fullShare ((stateAt m c t.val t.isLt).1) := by
  unfold Dat.leavesExact; rw [out_live t, after_o]; try rfl

set_option maxHeartbeats 4000000 in
/-- The body at any point: the inputs' buffers hold their blocks; at a slab's first tile the scratch is handed over at
    whatever it holds and taken back at the slab just written; at a later tile it is handed over at the slab the point
    before left and taken back unchanged; the output buffer is taken back at the point's stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_q, before_s, before_b]
  rw [show (dats m 0 c).owesAt () t.succ = (dats m 0 c).owesAt () t.castSucc from rfl]
  rw [show (dats m 0 c).Φ t.succ = slabInv m c (t.val + 1) t.isLt from rfl, slabInv_succ]
  rw [leaves_x, leaves_q, leaves_s, leaves_b, leaves_o, inv_castSucc m c t]
  by_cases h0 : t.val % 8 = 0
  · rw [stateAt_start m c t h0]
    unfold startAt outStart slabStart; (try dsimp only)
    iintro ⟨Hinv, Ho, ⟨%d0, H0⟩, ⟨%d1, H1⟩, ⟨%d2, H2⟩, ⟨%d3, H3⟩, ⟨%d4, H4⟩⟩
    ihave Hinv' := (slabInv_any m c _ _) $$ Hinv
    icases Hinv' with ⟨HS, Hg⟩
    iapply ((runStart c (grid0.coords t) _ _ _ _ _ _ _ _ _ _ _ _ ((slabStart_iff t).mpr h0) (fun h => (slabReuse_iff t).mp h h0) (iblk m c 0 t) (iblk m c 1 t) (iblk m c 2 t) (iblk m c 3 t)).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (slabStart_cover c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (outStart_cover c _ _ _ _ _ _ _ _ _ _ _ _ _ _ _ _ _ _ _)
  · have hz : t.val ≠ 0 := fun h => h0 (by rw [h])
    rw [stateAt_reuse m c t h0, slabInv_pos m c _ _ hz]
    unfold reuseAt outReuse; (try dsimp only)
    iintro ⟨⟨HS, Hg⟩, Ho, ⟨%d0, H0⟩, ⟨%d1, H1⟩, ⟨%d2, H2⟩, ⟨%d3, H3⟩, ⟨%d4, H4⟩⟩
    iapply ((runReuse c (grid0.coords t) _ _ _ _ _ _ _ _ _ _ _ _ (fun h => h0 ((slabStart_iff t).mp h)) ((slabReuse_iff t).mpr h0) (iblk m c 0 t) (iblk m c 3 t) _).2 Set.univ _)
    isplitl [H0]; · iexact H0
    isplitl [H3]; · iexact H3
    isplitl [H4]; · iexists _; iexact H4
    isplitl [HS]; · iexact HS
    iintro ⟨H0, H3, ⟨%e4, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (outReuse_cover c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- Entering the region, the scratch holds anything: the invariant before the first point. -/
theorem inv_in (c : Dev nD) : Pipeline.ΦA spec0 c ⊢ (dats m 0 c).Φ 0 := by
  rw [show (dats m 0 c).Φ 0 = Pipeline.ΦA spec0 c from rfl]
  try exact Idealize.SL.BI.Entails.refl _

/-- Leaving it, the slab's contents are forgotten. -/
theorem inv_out (c : Dev nD) : (dats m 0 c).Φ (Fin.last cfg0.N) ⊢ Pipeline.ΦA spec0 c := by
  rw [show (dats m 0 c).Φ (Fin.last cfg0.N) = slabInv m c (Fin.last cfg0.N).val (Nat.le_of_lt_succ (Fin.last cfg0.N).isLt) from rfl, classInv_eq]
  exact slabInv_any m c _ _

/-! ## The run and the frame -/

set_option backward.isDefEq.respectTransparency.types false in
/-- Every weakly fair execution of the program terminates without a fault, every array of the pipeline ending at what
    the library computes from the proof data and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := inv_in m) (hout := inv_out m)

/-- The frame claim's statement at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KI.Pieces.lean ====
/-
  What one grid point leaves in the output block and in the scratch slab, with the lists of written pieces opened:
  every store of the output block is whole, so the block ends at its last store's value, each earlier store read back
  by the next; the slab's eight stores stay a list of eight column panels. The body's arithmetic is named here by two
  functions: `deq`, one nibble position of the packed words dequantized (shift, mask, convert, scale), and `step`,
  an accumulator plus an activation panel times a dequantized panel (contracted over the panel's 512 columns).
-/
import proofs.«415939_j63342177681749_3_alg».proof.Proof.KI.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero_offsets : (![0, 0] : Fin 2 → Nat) = fun _ => 0 := by
  funext a; match a with | ⟨0, _⟩ => rfl | ⟨1, _⟩ => rfl

/-- A load of the whole buffer after a whole-buffer store, whatever was stored before, reads what was stored. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The packed words' nibble at shift `sh`, converted and scaled: one 1024 x 512 panel of the dequantized slab. -/
def deq (sh : BitVec 32) (q : Vec F S1024x512 .i32) (s : FVec F S1024x512 .f32) : FVec F S1024x512 .bf16 :=
  truncf .bf16 (mulf (sitofp .f32 (andi (shrsi q (broadcast S1024x512 sh)) (broadcast S1024x512 15#32))) s) bitsLt_bf16_f32

/-- One accumulation: the accumulator plus the activation panel `xk` times the dequantized panel `w`, contracted
    over the panel's 512 columns. -/
def step (w : FVec F S1024x512 .bf16) (xk : Vec F S512x512 .bf16) (acc : Vec F S512x1024 .f32) : FVec F S512x1024 .f32 :=
  addf (shapeCast S512x1024 acc shapeCasts_S512x1024_S512x1024)
    (matmul dot_S512x512_S1024x512_S512x1024_1_1_0_0_n_n none (shapeCast S512x512 xk shapeCasts_S512x512_S512x512) w
      (constant S512x1024 .f32 0x00000000#32))

/-- The activation tile's panel `k`: its columns `512 k` to `512 k + 511`. -/
abbrev panel0 (x0 : Vec F S512x4096 .bf16) := View.ld x0 (Rect.unit ![0, 0] ![512, 512] inb_S512x4096_S512x512_0_0)
abbrev panel1 (x0 : Vec F S512x4096 .bf16) := View.ld x0 (Rect.unit ![0, 512] ![512, 512] inb_S512x4096_S512x512_0_512)
abbrev panel2 (x0 : Vec F S512x4096 .bf16) := View.ld x0 (Rect.unit ![0, 1024] ![512, 512] inb_S512x4096_S512x512_0_1024)
abbrev panel3 (x0 : Vec F S512x4096 .bf16) := View.ld x0 (Rect.unit ![0, 1536] ![512, 512] inb_S512x4096_S512x512_0_1536)
abbrev panel4 (x0 : Vec F S512x4096 .bf16) := View.ld x0 (Rect.unit ![0, 2048] ![512, 512] inb_S512x4096_S512x512_0_2048)
abbrev panel5 (x0 : Vec F S512x4096 .bf16) := View.ld x0 (Rect.unit ![0, 2560] ![512, 512] inb_S512x4096_S512x512_0_2560)
abbrev panel6 (x0 : Vec F S512x4096 .bf16) := View.ld x0 (Rect.unit ![0, 3072] ![512, 512] inb_S512x4096_S512x512_0_3072)
abbrev panel7 (x0 : Vec F S512x4096 .bf16) := View.ld x0 (Rect.unit ![0, 3584] ![512, 512] inb_S512x4096_S512x512_0_3584)

/-- A later tile leaves the one block it stores. -/
theorem outReuse_eq (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : ¬SlabStart i) (h2 : SlabReuse i)
    (x0 : Vec F S512x4096 .bf16) (x3 : Vec F S1x1024 .f32) (xs : Vec F S1024x4096 .bf16) :
    outReuse c i arg2 harg2 arg3 harg3 arg4 harg4 arg5 harg5 arg6 harg6 arg7 harg7 h1 h2 x0 x3 xs = k0_pay3 x0 xs x3 := by
  unfold outReuse
  rw [View.read_writes_eq_canon _ _ _ (outReuse_cover c i arg2 harg2 arg3 harg3 arg4 harg4 arg5 harg5 arg6 harg6 arg7 harg7 h1 h2 x0 x3 xs)]
  unfold runReuse; dsimp only
  sl_unfold_words
  rw [View.canon_unit_zero zero_offsets]
  simp only [View.readAt_eq_ld, harg2.read_unread, harg7.read_unread, harg5.read_unread, View.ld_unit_zero (S := S512x4096) zero_offsets,
    View.ld_unit_zero (S := S1024x4096) zero_offsets, View.ld_unit_zero (S := S1x1024) zero_offsets]

/-- A slab's first tile leaves the bias block with the eight panels' products added one after the other. -/
theorem outStart_eq (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) :
    outStart c i arg2 harg2 arg3 harg3 arg4 harg4 arg5 harg5 arg6 harg6 arg7 harg7 h1 h2 x0 x1 x2 x3 =
      step (deq 0#32 x1 (k0_pay4 x2)) (panel7 x0) (step (deq 4#32 x1 (k0_pay4 x2)) (panel6 x0) (step (deq 8#32 x1 (k0_pay4 x2)) (panel5 x0)
        (step (deq 12#32 x1 (k0_pay4 x2)) (panel4 x0) (step (deq 16#32 x1 (k0_pay4 x2)) (panel3 x0) (step (deq 20#32 x1 (k0_pay4 x2)) (panel2 x0)
          (step (deq 24#32 x1 (k0_pay4 x2)) (panel1 x0) (step (deq 28#32 x1 (k0_pay4 x2)) (panel0 x0) (k0_pay5 x3)))))))) := by
  unfold outStart
  rw [View.read_writes_eq_canon _ _ _ (outStart_cover c i arg2 harg2 arg3 harg3 arg4 harg4 arg5 harg5 arg6 harg6 arg7 harg7 h1 h2 x0 x1 x2 x3)]
  unfold runStart; dsimp only
  sl_unfold_words
  rw [View.canon_cons_unit_zero zero_offsets]
  simp only [readCov_cons_whole (S := S512x1024) _ zero_offsets, View.readCov_unit_zero (S := S512x1024) _ zero_offsets, View.readAt_eq_ld,
    harg2.read_unread, harg3.read_unread, harg4.read_unread, harg5.read_unread,
    View.ld_unit_zero (S := S1024x512) zero_offsets, View.ld_unit_zero (S := S1x1024) zero_offsets]
  rfl

/-- A slab's first tile leaves in the scratch buffer the eight dequantized panels, each at its 512 columns. -/
theorem slabStart_eq (c : Dev nD) (i : grid0.Coords)
    (arg2 : Memref sig .tc .vmem S512x4096 .bf16) (harg2 : arg2.IsWhole) (arg3 : Memref sig .tc .vmem S1024x512 .i32) (harg3 : arg3.IsWhole)
    (arg4 : Memref sig .tc .vmem S1024x512 .f32) (harg4 : arg4.IsWhole) (arg5 : Memref sig .tc .vmem S1x1024 .f32) (harg5 : arg5.IsWhole)
    (arg6 : Memref sig .tc .vmem S512x1024 .f32) (harg6 : arg6.IsWhole) (arg7 : Memref sig .tc .vmem S1024x4096 .bf16) (harg7 : arg7.IsWhole)
    (h1 : SlabStart i) (h2 : ¬SlabReuse i)
    (x0 : Vec F S512x4096 .bf16) (x1 : Vec F S1024x512 .i32) (x2 : Vec F S1024x512 .f32) (x3 : Vec F S1x1024 .f32) :
    slabStart c i arg2 harg2 arg3 harg3 arg4 harg4 arg5 harg5 arg6 harg6 arg7 harg7 h1 h2 x0 x1 x2 x3 =
      View.canon
        [⟨Rect.unit ![0, 3584] ![1024, 512] inb_S1024x4096_S1024x512_0_3584, k0_pay1 (deq 0#32 x1 (k0_pay4 x2))⟩,
         ⟨Rect.unit ![0, 3072] ![1024, 512] inb_S1024x4096_S1024x512_0_3072, k0_pay1 (deq 4#32 x1 (k0_pay4 x2))⟩,
         ⟨Rect.unit ![0, 2560] ![1024, 512] inb_S1024x4096_S1024x512_0_2560, k0_pay1 (deq 8#32 x1 (k0_pay4 x2))⟩,
         ⟨Rect.unit ![0, 2048] ![1024, 512] inb_S1024x4096_S1024x512_0_2048, k0_pay1 (deq 12#32 x1 (k0_pay4 x2))⟩,
         ⟨Rect.unit ![0, 1536] ![1024, 512] inb_S1024x4096_S1024x512_0_1536, k0_pay1 (deq 16#32 x1 (k0_pay4 x2))⟩,
         ⟨Rect.unit ![0, 1024] ![1024, 512] inb_S1024x4096_S1024x512_0_1024, k0_pay1 (deq 20#32 x1 (k0_pay4 x2))⟩,
         ⟨Rect.unit ![0, 512] ![1024, 512] inb_S1024x4096_S1024x512_0_512, k0_pay1 (deq 24#32 x1 (k0_pay4 x2))⟩,
         ⟨Rect.unit ![0, 0] ![1024, 512] inb_S1024x4096_S1024x512_0_0, k0_pay1 (deq 28#32 x1 (k0_pay4 x2))⟩] := by
  unfold slabStart
  rw [View.read_writes_eq_canon _ _ _ (slabStart_cover c i arg2 harg2 arg3 harg3 arg4 harg4 arg5 harg5 arg6 harg6 arg7 harg7 h1 h2 x0 x1 x2 x3)]
  unfold runStart; dsimp only
  sl_unfold_words
  simp only [View.readAt_eq_ld, harg3.read_unread, harg4.read_unread, View.ld_unit_zero (S := S1024x512) zero_offsets]
  rfl

end Cert.KernelIdeal.Body

end
-- ==== Proof.KI.Entries.lean ====
/-
  The body's arithmetic read entry by entry on the extended reals. A dequantized panel's entry is the word's nibble
  (as a number) times the scale; an accumulation adds, at each output entry, the sum over the panel's 512 columns of
  activation times weight; the later tiles' one product sums over all 4096 columns of the slab; the bias row is
  repeated down the 512 rows. The slab the first tile leaves is, at column `512 k + c` of row `r`, nibble `k` of
  word `(r, c)` times scale `(r, c)`.
-/
import proofs.«415939_j63342177681749_3_alg».proof.Proof.KI.Pieces
import Idealize.ShloMosaic.Lib.ValueIdx
import Idealize.ShloMosaic.Lib.ValueLayout
import Idealize.ShloMosaic.PureOps.Ideal.Laws

set_option maxRecDepth 16384

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Nibble `k` (from the top) of a word as the kernel's vector unit extracts it, as a number. -/
def nibV (w : BitVec 32) (k : ℕ) : EReal :=
  (((IntOp.andi (IntOp.shrsi .vector w (BitVec.ofNat 32 (28 - 4 * k))) 15#32).toInt : ℝ) : EReal)

theorem deq_apply (sh : BitVec 32) (q : Vec Ideal S1024x512 .i32) (s : FVec Ideal S1024x512 .f32) (y : S1024x512.Idx) :
    deq (F := Ideal) sh q s y = (((IntOp.andi (IntOp.shrsi .vector (q y) sh) 15#32).toInt : ℝ) : EReal) * s y := rfl

theorem pay4_eq (s : Vec Ideal S1024x512 .f32) : k0_pay4 (F := Ideal) s = s := shapeCast_self _ _
theorem pay1_eq (v : FVec Ideal S1024x512 .bf16) : k0_pay1 (F := Ideal) v = v := shapeCast_self _ _

theorem lhs_panel_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_panel_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem rhs_panel_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_panel_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The matrix product into a zero accumulator, at an output entry: the sum over the 512 contracted columns. -/
theorem matmul_panel_apply (l : FVec Ideal S512x512 .bf16) (r : FVec Ideal S1024x512 .bf16) (a : Fin 512) (b : Fin 1024) :
    matmul dot_S512x512_S1024x512_S512x1024_1_1_0_0_n_n none l r (constant S512x1024 .f32 0x00000000#32) (ix2 a b)
      = ∑ k : Fin 512, l (ix2 a k) * r (ix2 b k) := by
  simp only [matmul]
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 a b) ((ValueIdx.contrEquiv1 dot_S512x512_S1024x512_S512x1024_1_1_0_0_n_n 512 rfl rfl).symm k) = ix2 a k := funext fun x => Fin.ext (by
    match x with
    | ⟨0, _⟩ => exact lhs_panel_0 _ _
    | ⟨1, _⟩ => exact (lhs_panel_1 _ _).trans hk)
  have er : dot_S512x512_S1024x512_S512x1024_1_1_0_0_n_n.rhsIdx (ix2 a b) ((ValueIdx.contrEquiv1 dot_S512x512_S1024x512_S512x1024_1_1_0_0_n_n 512 rfl rfl).symm k) = ix2 b k := funext fun x => Fin.ext (by
    match x with
    | ⟨0, _⟩ => exact rhs_panel_0 _ _
    | ⟨1, _⟩ => exact (rhs_panel_1 _ _).trans hk)
  rw [el, er]

theorem lhs_slab_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_slab_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs_slab_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_slab_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The matrix product into a zero accumulator, at an output entry: the sum over the 4096 contracted columns. -/
theorem matmul_slab_apply (l : FVec Ideal S512x4096 .bf16) (r : FVec Ideal S1024x4096 .bf16) (a : Fin 512) (b : Fin 1024) :
    matmul dot_S512x4096_S1024x4096_S512x1024_1_1_0_0_n_n none l r (constant S512x1024 .f32 0x00000000#32) (ix2 a b)
      = ∑ k : Fin 4096, l (ix2 a k) * r (ix2 b k) := by
  simp only [matmul]
  rw [Ideal.matmul_constant_zero_apply, ← Equiv.sum_comp (ValueIdx.contrEquiv1 dot_S512x4096_S1024x4096_S512x1024_1_1_0_0_n_n 4096 rfl rfl).symm]
  refine Finset.sum_congr rfl fun k _ => ?_
  have hk := ValueIdx.contrEquiv1_symm_val dot_S512x4096_S1024x4096_S512x1024_1_1_0_0_n_n 4096 rfl rfl k
  have el : dot_S512x4096_S1024x4096_S512x1024_1_1_0_0_n_n.lhsIdx (ix2 a b) ((ValueIdx.contrEquiv1 dot_S512x4096_S1024x4096_S512x1024_1_1_0_0_n_n 4096 rfl rfl).symm k) = ix2 a k := funext fun x => Fin.ext (by
    match x with
    | ⟨0, _⟩ => exact lhs_slab_0 _ _
    | ⟨1, _⟩ => exact (lhs_slab_1 _ _).trans hk)
  have er : dot_S512x4096_S1024x4096_S512x1024_1_1_0_0_n_n.rhsIdx (ix2 a b) ((ValueIdx.contrEquiv1 dot_S512x4096_S1024x4096_S512x1024_1_1_0_0_n_n 4096 rfl rfl).symm k) = ix2 b k := funext fun x => Fin.ext (by
    match x with
    | ⟨0, _⟩ => exact rhs_slab_0 _ _
    | ⟨1, _⟩ => exact (rhs_slab_1 _ _).trans hk)
  rw [el, er]

/-- One accumulation at an output entry. -/
theorem step_apply (w : FVec Ideal S1024x512 .bf16) (xk : Vec Ideal S512x512 .bf16) (acc : Vec Ideal S512x1024 .f32)
    (a : Fin 512) (b : Fin 1024) :
    step (F := Ideal) w xk acc (ix2 a b) = acc (ix2 a b) + ∑ k : Fin 512, xk (ix2 a k) * w (ix2 b k) := by
  unfold step
  rw [shapeCast_self, shapeCast_self]
  show acc (ix2 a b) + matmul (F := Ideal) dot_S512x512_S1024x512_S512x1024_1_1_0_0_n_n none xk w (constant S512x1024 .f32 0x00000000#32) (ix2 a b) = _
  rw [matmul_panel_apply]

/-- The bias row repeated down the rows. -/
theorem pay5_apply (x3 : Vec Ideal S1x1024 .f32) (a : Fin 512) (b : Fin 1024) :
    k0_pay5 (F := Ideal) x3 (ix2 a b) = x3 (ix2 (0 : Fin 1) b) := by
  unfold k0_pay5
  rw [shapeCast_self, shapeCast_self]
  exact broadcastTo_apply x3 broadcasts_S1x1024_S512x1024 (ix2 a b) (ix2 (0 : Fin 1) b) (fun x => by
    match x with
    | ⟨0, _⟩ => rfl
    | ⟨1, _⟩ => rfl)

/-- A later tile's block at an output entry: the sum over all 4096 columns of the slab, plus the bias. -/
theorem pay3_apply (x0 : Vec Ideal S512x4096 .bf16) (xs : Vec Ideal S1024x4096 .bf16) (x3 : Vec Ideal S1x1024 .f32)
    (a : Fin 512) (b : Fin 1024) :
    k0_pay3 (F := Ideal) x0 xs x3 (ix2 a b) = (∑ j : Fin 4096, x0 (ix2 a j) * xs (ix2 b j)) + x3 (ix2 (0 : Fin 1) b) := by
  unfold k0_pay3
  rw [shapeCast_self, shapeCast_self]
  show matmul (F := Ideal) dot_S512x4096_S1024x4096_S512x1024_1_1_0_0_n_n none x0 xs (constant S512x1024 .f32 0x00000000#32) (ix2 a b)
      + broadcastTo S512x1024 x3 broadcasts_S1x1024_S512x1024 (ix2 a b) = _
  rw [matmul_slab_apply]
  congr 1
  exact broadcastTo_apply x3 broadcasts_S1x1024_S512x1024 (ix2 a b) (ix2 (0 : Fin 1) b) (fun x => by
    match x with
    | ⟨0, _⟩ => rfl
    | ⟨1, _⟩ => rfl)

end Cert.KernelIdeal.Body

end
-- ==== Proof.Spec.lean ====
/-
  The function both programs compute, and the two rearrangements of its sum that the kernel uses.

  The packed weight has 8 four-bit nibbles per 32-bit word, the top nibble first: column `i` of row `o` of the
  dequantized weight is nibble `i % 8` of word `i / 8` of that row, as a number 0..15, times the scale of the column's
  group of 128. The result at `(t, o)` is the sum over the 4096 columns of `x[t, i]` times that weight, plus `bias[o]`.

  The kernel visits the columns in "nibble-major" order (all words' nibble 0, then all words' nibble 1, ...): position
  `j = k * 512 + c` stands for column `c * 8 + k`. On the extended reals a finite sum may be reordered and regrouped
  freely (addition is commutative and associative there, infinities included), so no finiteness is needed.
-/
import Idealize.ShloMosaic.PureOps.Ideal
import Idealize.ShloMosaic.Lib.ValueIdx
import Mathlib.Algebra.BigOperators.Fin
import Mathlib.Tactic.Abel

noncomputable section

namespace Cert.Awq

open Idealize.ShloMosaic Idealize.ShloMosaic.ValueIdx

/-- Nibble `k` of a packed word, counted from the top: the word shifted right by `28 - 4k` (the sign propagated, which
    the mask then removes) and masked to its low four bits, as a real number. -/
def nib (w : BitVec 32) (k : Fin 8) : EReal :=
  (((IntOp.andi (w.sshiftRight' (BitVec.ofNat 32 (28 - 4 * k.val))) 15#32).toInt : ℝ) : EReal)

/-- The dequantized weight at row `o`, column `i`. -/
def wt (q : (⟨2, ![12288, 512]⟩ : Shape).Idx → BitVec 32) (s : (⟨2, ![12288, 32]⟩ : Shape).Idx → EReal)
    (o : Fin 12288) (i : Fin 4096) : EReal :=
  nib (q (ix2 o (⟨i.val / 8, by omega⟩ : Fin 512))) (⟨i.val % 8, by omega⟩ : Fin 8)
    * s (ix2 o (⟨i.val / 128, by omega⟩ : Fin 32))

/-- The result: `x` times the transposed dequantized weight, plus the bias, entry by entry. -/
def G (x : (⟨2, ![4096, 4096]⟩ : Shape).Idx → EReal) (q : (⟨2, ![12288, 512]⟩ : Shape).Idx → BitVec 32)
    (s : (⟨2, ![12288, 32]⟩ : Shape).Idx → EReal) (b : (⟨1, ![12288]⟩ : Shape).Idx → EReal) :
    (⟨2, ![4096, 12288]⟩ : Shape).Idx → EReal :=
  fun j => (∑ i : Fin 4096, x (ix2 (j 0) i) * wt q s (j 1) i) + b (ix1 (j 1))

/-- The column that word `c`'s nibble `k` dequantizes to. -/
def col (c : Fin 512) (k : Fin 8) : Fin 4096 := ⟨c.val * 8 + k.val, by omega⟩

/-- Nibble-major position `j = k * 512 + c` to column `c * 8 + k`, a permutation of the 4096 columns. -/
def nibMajor : Fin 4096 ≃ Fin 4096 where
  toFun j := ⟨(j.val % 512) * 8 + j.val / 512, by omega⟩
  invFun i := ⟨(i.val % 8) * 512 + i.val / 8, by omega⟩
  left_inv j := by apply Fin.ext; simp only []; omega
  right_inv i := by apply Fin.ext; simp only []; omega

/-- A sum over the columns, taken in nibble-major order. -/
theorem sum_nibMajor (f : Fin 4096 → EReal) : ∑ j : Fin 4096, f (nibMajor j) = ∑ i : Fin 4096, f i :=
  Equiv.sum_comp nibMajor f

/-- A sum over the columns, split by nibble position: eight sums over the 512 words. -/
theorem sum_by_nibble (f : Fin 4096 → EReal) :
    ∑ i : Fin 4096, f i = ∑ k : Fin 8, ∑ c : Fin 512, f (col c k) := by
  have e : ∑ i : Fin 4096, f i = ∑ p : Fin 512 × Fin 8, f (col p.1 p.2) := by
    rw [← Equiv.sum_comp (finProdFinEquiv (m := 512) (n := 8)) f]
    refine Finset.sum_congr rfl fun p _ => congrArg f (Fin.ext ?_)
    show p.2.val + 8 * p.1.val = p.1.val * 8 + p.2.val
    omega
  rw [e, Fintype.sum_prod_type, Finset.sum_comm]

/-- The bias first and the eight partial sums added one after the other is the whole sum plus the bias. -/
theorem seeded_sum (f : Fin 4096 → EReal) (b : EReal) :
    b + (∑ c : Fin 512, f (col c 0)) + (∑ c : Fin 512, f (col c 1)) + (∑ c : Fin 512, f (col c 2))
      + (∑ c : Fin 512, f (col c 3)) + (∑ c : Fin 512, f (col c 4)) + (∑ c : Fin 512, f (col c 5))
      + (∑ c : Fin 512, f (col c 6)) + (∑ c : Fin 512, f (col c 7)) = (∑ i : Fin 4096, f i) + b := by
  rw [sum_by_nibble, Fin.sum_univ_eight]
  abel

end Cert.Awq

end
-- ==== Proof.KI.Blocks.lean ====
/-
  Where each window's block sits in its array, and what the arrays the region finds hold. Point `t` works on weight
  slab `t / 8` and activation tile `t % 8`: the activation block is rows `512 (t % 8) ..` of the re-laid activations,
  the packed words, the repeated scales and the bias are rows (columns, for the bias) `1024 (t / 8) ..`, the output
  block is rows `512 (t % 8) ..`, columns `1024 (t / 8) ..`. The host lines before the region re-lay the activations
  into nibble-major column order (position `j` holds column `(j % 512) * 8 + j / 512`), repeat each group scale over
  the 16 packed words of its group, and view the bias as one row.
-/
import proofs.«415939_j63342177681749_3_alg».proof.Proof.KI.Entries
import proofs.«415939_j63342177681749_3_alg».proof.Proof.Spec
import Idealize.ShloMosaic.Lib.StableHlo.Run

set_option maxRecDepth 16384

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open Idealize.ShloMosaic.StableHlo Cert.Awq

variable (m : (ℓ : Loc nD τ sig) → Buf (Elt Ideal) ℓ)

/-- The printed index maps over the grid: tile `t % 8`, slab `t / 8`. -/
theorem idx_maps : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val / 8
    ∧ win0_4.index t (0 : Fin 2) = t.val % 8 ∧ win0_4.index t (1 : Fin 2) = t.val / 8 :=
  (by decide +kernel : ∀ t : Fin grid0.N, _)

theorem point_lt (t : Fin cfg0.N) : t.val < 96 := lt_of_lt_of_eq t.isLt (show cfg0.N = 96 from N_0)

/-- The arrays as the region finds them, at their literal types. -/
abbrev xrArr (c : Dev nD) : Vec Ideal S4096x4096 .bf16 := V m c main_v3
abbrev qArr (c : Dev nD) : Vec Ideal S12288x512 .i32 := V m c main_arg1
abbrev srArr (c : Dev nD) : Vec Ideal S12288x512 .f32 := V m c main_v5
abbrev b2Arr (c : Dev nD) : Vec Ideal S1x12288 .f32 := V m c main_v6
/-- The arguments. -/
abbrev xArg (c : Dev nD) : Vec Ideal S4096x4096 .f32 := m ((c.tc : Thread nD τ).loc main_arg0)
abbrev qArg (c : Dev nD) : Vec Ideal S12288x512 .i32 := m ((c.tc : Thread nD τ).loc main_arg1)
abbrev sArg (c : Dev nD) : Vec Ideal S12288x32 .f32 := m ((c.tc : Thread nD τ).loc main_arg2)
abbrev bArg (c : Dev nD) : Vec Ideal S12288 .f32 := m ((c.tc : Thread nD τ).loc main_arg3)

/-! ## The blocks -/

theorem xblk_apply (c : Dev nD) (t : Fin cfg0.N) (a : Fin 512) (j : Fin 4096) :
    (iblk m c 0 t : Vec Ideal S512x4096 .bf16) (ix2 a j)
      = xrArr m c (ix2 (⟨512 * (t.val % 8) + a.val, by have := a.isLt; omega⟩ : Fin 4096) j) := by
  obtain ⟨e0, e1, -⟩ := idx_maps t
  show xrArr m c (((cfg0.win 0).blk t).view.emb (ix2 a j)) = _
  congr 1
  funext x; apply Fin.ext
  match x with
  | ⟨0, _⟩ => show win0_0.index t (0 : Fin 2) * 512 + 1 * a.val = 512 * (t.val % 8) + a.val; omega
  | ⟨1, _⟩ => show win0_0.index t (1 : Fin 2) * 4096 + 1 * j.val = j.val; omega

theorem qblk_apply (c : Dev nD) (t : Fin cfg0.N) (a : Fin 1024) (j : Fin 512) :
    (iblk m c 1 t : Vec Ideal S1024x512 .i32) (ix2 a j)
      = qArr m c (ix2 (⟨1024 * (t.val / 8) + a.val, by have := a.isLt; have := point_lt t; omega⟩ : Fin 12288) j) := by
  obtain ⟨-, -, e0, e1, -⟩ := idx_maps t
  show qArr m c (((cfg0.win 1).blk t).view.emb (ix2 a j)) = _
  congr 1
  funext x; apply Fin.ext
  match x with
  | ⟨0, _⟩ => show win0_1.index t (0 : Fin 2) * 1024 + 1 * a.val = 1024 * (t.val / 8) + a.val; omega
  | ⟨1, _⟩ => show win0_1.index t (1 : Fin 2) * 512 + 1 * j.val = j.val; omega

theorem sblk_apply (c : Dev nD) (t : Fin cfg0.N) (a : Fin 1024) (j : Fin 512) :
    (iblk m c 2 t : Vec Ideal S1024x512 .f32) (ix2 a j)
      = srArr m c (ix2 (⟨1024 * (t.val / 8) + a.val, by have := a.isLt; have := point_lt t; omega⟩ : Fin 12288) j) := by
  obtain ⟨-, -, -, -, e0, e1, -⟩ := idx_maps t
  show srArr m c (((cfg0.win 2).blk t).view.emb (ix2 a j)) = _
  congr 1
  funext x; apply Fin.ext
  match x with
  | ⟨0, _⟩ => show win0_2.index t (0 : Fin 2) * 1024 + 1 * a.val = 1024 * (t.val / 8) + a.val; omega
  | ⟨1, _⟩ => show win0_2.index t (1 : Fin 2) * 512 + 1 * j.val = j.val; omega

theorem bblk_apply (c : Dev nD) (t : Fin cfg0.N) (j : Fin 1024) :
    (iblk m c 3 t : Vec Ideal S1x1024 .f32) (ix2 (0 : Fin 1) j)
      = b2Arr m c (ix2 (0 : Fin 1) (⟨1024 * (t.val / 8) + j.val, by have := j.isLt; have := point_lt t; omega⟩ : Fin 12288)) := by
  obtain ⟨-, -, -, -, -, -, e0, e1, -⟩ := idx_maps t
  show b2Arr m c (((cfg0.win 3).blk t).view.emb (ix2 (0 : Fin 1) j)) = _
  congr 1
  funext x; apply Fin.ext
  match x with
  | ⟨0, _⟩ => show win0_3.index t (0 : Fin 2) * 1 + 1 * 0 = 0; omega
  | ⟨1, _⟩ => show win0_3.index t (1 : Fin 2) * 1024 + 1 * j.val = 1024 * (t.val / 8) + j.val; omega

/-! ## The arrays the host lines wrote -/

/-- The re-laid activations: position `j` of a row holds the argument's column `nibMajor j`. -/
theorem xr_apply (c : Dev nD) (T j : Fin 4096) :
    xrArr m c (ix2 T j) = xArg m c (ix2 T (nibMajor j)) := by
  have hT := T.isLt
  have hj := j.isLt
  have e : xrArr m c = truncf (F := Ideal) .bf16 (shapeCast S4096x4096 (transpose S4096x8x512 [0, 2, 1]
      (shapeCast S4096x512x8 (xArg m c) shapeCasts_S4096x4096_S4096x512x8) transposes_S4096x512x8_S4096x8x512_0_2_1)
      shapeCasts_S4096x8x512_S4096x4096) bitsLt_bf16_f32 := by
    dsimp only [xrArr, V, hostOps0]; after_results; rfl
  rw [e]
  show shapeCast S4096x4096 (transpose S4096x8x512 [0, 2, 1]
      (shapeCast S4096x512x8 (xArg m c) shapeCasts_S4096x4096_S4096x512x8) transposes_S4096x512x8_S4096x8x512_0_2_1)
      shapeCasts_S4096x8x512_S4096x4096 (ix2 T j) = _
  rw [shapeCast_apply _ shapeCasts_S4096x8x512_S4096x4096 (ix2 T j)
    (ix3 T (⟨j.val / 512, by omega⟩ : Fin 8) (⟨j.val % 512, by omega⟩ : Fin 512))
    (by rw [Shape.rowMajor_val_three, Shape.rowMajor_val_two]
        show (T.val * 8 + j.val / 512) * 512 + j.val % 512 = T.val * 4096 + j.val; omega)]
  rw [transpose_apply [0, 2, 1] _ transposes_S4096x512x8_S4096x8x512_0_2_1
    (ix3 T (⟨j.val / 512, by omega⟩ : Fin 8) (⟨j.val % 512, by omega⟩ : Fin 512))
    (ix3 T (⟨j.val % 512, by omega⟩ : Fin 512) (⟨j.val / 512, by omega⟩ : Fin 8))
    (fun b => by match b with | ⟨0, _⟩ => rfl | ⟨1, _⟩ => rfl | ⟨2, _⟩ => rfl)]
  exact shapeCast_apply _ shapeCasts_S4096x4096_S4096x512x8 _ (ix2 T (nibMajor j))
    (by rw [Shape.rowMajor_val_two, Shape.rowMajor_val_three]
        show T.val * 4096 + (j.val % 512 * 8 + j.val / 512) = (T.val * 512 + j.val % 512) * 8 + j.val / 512; omega)

/-- The repeated scales: packed word `cc` of a row has the scale of its group `cc / 16`. -/
theorem sr_apply (c : Dev nD) (o : Fin 12288) (cc : Fin 512) :
    srArr m c (ix2 o cc) = sArg m c (ix2 o (⟨cc.val / 16, by have := cc.isLt; omega⟩ : Fin 32)) := by
  have ho := o.isLt
  have hc := cc.isLt
  have e : srArr m c = shapeCast S12288x512 (broadcastInDim S12288x32x16 ![0, 1] bcast_S12288x32_S12288x32x16_0_1 (sArg m c))
      shapeCasts_S12288x32x16_S12288x512 := by
    dsimp only [srArr, V, hostOps0]; after_results; rfl
  rw [e]
  rw [shapeCast_apply _ shapeCasts_S12288x32x16_S12288x512 (ix2 o cc)
    (ix3 o (⟨cc.val / 16, by omega⟩ : Fin 32) (⟨cc.val % 16, by omega⟩ : Fin 16))
    (by rw [Shape.rowMajor_val_three, Shape.rowMajor_val_two]
        show (o.val * 32 + cc.val / 16) * 16 + cc.val % 16 = o.val * 512 + cc.val; omega)]
  exact broadcastInDim_apply _ bcast_S12288x32_S12288x32x16_0_1 (sArg m c) _ (ix2 o (⟨cc.val / 16, by omega⟩ : Fin 32))
    (fun a => by
      match a with
      | ⟨0, _⟩ => show o.val = if (12288 : Nat) = 1 then 0 else o.val; rw [if_neg (by decide)]
      | ⟨1, _⟩ => show cc.val / 16 = if (32 : Nat) = 1 then 0 else cc.val / 16; rw [if_neg (by decide)])

/-- The bias as one row. -/
theorem b2_apply (c : Dev nD) (o : Fin 12288) :
    b2Arr m c (ix2 (0 : Fin 1) o) = bArg m c (ix1 o) := by
  have e : b2Arr m c = shapeCast S1x12288 (bArg m c) shapeCasts_S12288_S1x12288 := by
    dsimp only [b2Arr, V, hostOps0]; after_results; rfl
  rw [e]
  exact shapeCast_apply _ shapeCasts_S12288_S1x12288 (ix2 (0 : Fin 1) o) (ix1 o)
    (by rw [Shape.rowMajor_val_one, Shape.rowMajor_val_two]; show o.val = 0 * 12288 + o.val; omega)

theorem q_apply (c : Dev nD) : qArr m c = qArg m c := V_main_arg1 m c

end Cert.KernelIdeal.Body

end
-- ==== Proof.KI.Slab.lean ====
/-
  The slab in the scratch buffer, point by point. The first tile of slab `t / 8` leaves, at row `r` and column
  `512 k + c` of the scratch, nibble `k` of packed word `(1024 (t / 8) + r, c)` times that word's repeated scale; the
  seven later tiles leave the scratch alone. So after every point the scratch holds the current slab of ONE array-level
  function `slabEntry`, by induction along the grid.
-/
import proofs.«415939_j63342177681749_3_alg».proof.Proof.KI.Blocks

set_option maxRecDepth 16384

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open Cert.Awq

variable (m : (ℓ : Loc nD τ sig) → Buf (Elt Ideal) ℓ)

/-- The panels a slab's first tile stores, as one function of the scratch index: column `512 k + c` holds nibble `k`
    of word `c` of the row, times the row's scale at `c`. -/
def slabFn (q : Vec Ideal S1024x512 .i32) (s : Vec Ideal S1024x512 .f32) : S1024x4096.Idx → EReal := fun y =>
  nibV (q (ix2 (y 0) (⟨(y 1).val % 512, Nat.mod_lt _ (by decide)⟩ : Fin 512))) ((y 1).val / 512)
    * s (ix2 (y 0) (⟨(y 1).val % 512, Nat.mod_lt _ (by decide)⟩ : Fin 512))

theorem slabFn_at (q : Vec Ideal S1024x512 .i32) (s : Vec Ideal S1024x512 .f32) (y : S1024x4096.Idx) (x : S1024x512.Idx) (k : ℕ)
    (h0 : (y 0).val = (x 0).val) (h1 : (y 1).val = 512 * k + (x 1).val) :
    slabFn q s y = nibV (q x) k * s x := by
  have hx : (x 1).val < 512 := (x 1).isLt
  have e : (ix2 (y 0) (⟨(y 1).val % 512, Nat.mod_lt _ (by decide)⟩ : Fin 512) : S1024x512.Idx) = x :=
    funext fun a => Fin.ext (by
      match a with
      | ⟨0, _⟩ => exact h0
      | ⟨1, _⟩ => show (y 1).val % 512 = (x 1).val; omega)
  have ek : (y 1).val / 512 = k := by omega
  unfold slabFn
  rw [e, ek]

/-- The eight panels, each at its 512 columns, are that function. -/
theorem slab_canon (q : Vec Ideal S1024x512 .i32) (s : Vec Ideal S1024x512 .f32) :
    View.canon (Val := Elt Ideal)
        ([⟨Rect.unit ![0, 3584] ![1024, 512] inb_S1024x4096_S1024x512_0_3584, deq (F := Ideal) 0#32 q s⟩,
         ⟨Rect.unit ![0, 3072] ![1024, 512] inb_S1024x4096_S1024x512_0_3072, deq (F := Ideal) 4#32 q s⟩,
         ⟨Rect.unit ![0, 2560] ![1024, 512] inb_S1024x4096_S1024x512_0_2560, deq (F := Ideal) 8#32 q s⟩,
         ⟨Rect.unit ![0, 2048] ![1024, 512] inb_S1024x4096_S1024x512_0_2048, deq (F := Ideal) 12#32 q s⟩,
         ⟨Rect.unit ![0, 1536] ![1024, 512] inb_S1024x4096_S1024x512_0_1536, deq (F := Ideal) 16#32 q s⟩,
         ⟨Rect.unit ![0, 1024] ![1024, 512] inb_S1024x4096_S1024x512_0_1024, deq (F := Ideal) 20#32 q s⟩,
         ⟨Rect.unit ![0, 512] ![1024, 512] inb_S1024x4096_S1024x512_0_512, deq (F := Ideal) 24#32 q s⟩,
         ⟨Rect.unit ![0, 0] ![1024, 512] inb_S1024x4096_S1024x512_0_0, deq (F := Ideal) 28#32 q s⟩] : List (View.Piece (Elt Ideal) S1024x4096 .bf16))
      = slabFn q s := by
  funext y
  refine View.canon_apply_of_pieces (Val := Elt Ideal) (S := S1024x4096) (e := .bf16) (slabFn q s) _ ?_ y (View.cover_of_tiledL (s := S1024x4096) _ S1024x512.size (by sl_kernel_rfl) y)
  intro p hp x
  simp only [List.mem_cons, List.not_mem_nil, or_false] at hp
  rcases hp with rfl | rfl | rfl | rfl | rfl | rfl | rfl | rfl
  · exact (slabFn_at q s _ x 7 (by show 0 + 1 * (x 0).val = (x 0).val; omega) (by show 3584 + 1 * (x 1).val = 512 * 7 + (x 1).val; omega)).symm
  · exact (slabFn_at q s _ x 6 (by show 0 + 1 * (x 0).val = (x 0).val; omega) (by show 3072 + 1 * (x 1).val = 512 * 6 + (x 1).val; omega)).symm
  · exact (slabFn_at q s _ x 5 (by show 0 + 1 * (x 0).val = (x 0).val; omega) (by show 2560 + 1 * (x 1).val = 512 * 5 + (x 1).val; omega)).symm
  · exact (slabFn_at q s _ x 4 (by show 0 + 1 * (x 0).val = (x 0).val; omega) (by show 2048 + 1 * (x 1).val = 512 * 4 + (x 1).val; omega)).symm
  · exact (slabFn_at q s _ x 3 (by show 0 + 1 * (x 0).val = (x 0).val; omega) (by show 1536 + 1 * (x 1).val = 512 * 3 + (x 1).val; omega)).symm
  · exact (slabFn_at q s _ x 2 (by show 0 + 1 * (x 0).val = (x 0).val; omega) (by show 1024 + 1 * (x 1).val = 512 * 2 + (x 1).val; omega)).symm
  · exact (slabFn_at q s _ x 1 (by show 0 + 1 * (x 0).val = (x 0).val; omega) (by show 512 + 1 * (x 1).val = 512 * 1 + (x 1).val; omega)).symm
  · exact (slabFn_at q s _ x 0 (by show 0 + 1 * (x 0).val = (x 0).val; omega) (by show 0 + 1 * (x 1).val = 512 * 0 + (x 1).val; omega)).symm

/-- Row `o`, nibble-major position `j` of the whole dequantized weight, over the arrays the region finds. -/
def slabEntry (c : Dev nD) (o : Fin 12288) (j : Fin 4096) : EReal :=
  nibV (qArr m c (ix2 o (⟨j.val % 512, Nat.mod_lt _ (by decide)⟩ : Fin 512))) (j.val / 512)
    * srArr m c (ix2 o (⟨j.val % 512, Nat.mod_lt _ (by decide)⟩ : Fin 512))

/-- The slab row of point `n`'s slab. -/
abbrev slabRow (n : ℕ) (hn : n < cfg0.N) (r : Fin 1024) : Fin 12288 :=
  ⟨1024 * (n / 8) + r.val, by have := r.isLt; have := lt_of_lt_of_eq hn (show cfg0.N = 96 from N_0); omega⟩

/-- A slab's first tile leaves its slab. -/
theorem start_slab (c : Dev nD) (t : Fin cfg0.N) (h0 : t.val % 8 = 0) (r : Fin 1024) (j : Fin 4096) :
    (startAt m c t h0).2 (ix2 r j) = slabEntry m c (slabRow t.val t.isLt r) j := by
  unfold startAt
  dsimp only
  rw [slabStart_eq]
  simp only [pay1_eq, pay4_eq]
  rw [slab_canon]
  unfold slabFn slabEntry
  rw [qblk_apply, sblk_apply]

/-- After every point the scratch holds the point's slab. -/
theorem slab_inv (c : Dev nD) : ∀ (n : ℕ) (hn : n < cfg0.N) (r : Fin 1024) (j : Fin 4096),
    (stateAt m c n hn).2 (ix2 r j) = slabEntry m c (slabRow n hn r) j
  | 0, hn, r, j => by
    rw [show stateAt m c 0 hn = startAt m c ⟨0, hn⟩ (Nat.zero_mod _) from rfl]
    exact start_slab m c ⟨0, hn⟩ (Nat.zero_mod _) r j
  | n + 1, hn, r, j => by
    by_cases h0 : (n + 1) % 8 = 0
    · rw [stateAt_start m c ⟨n + 1, hn⟩ h0]
      exact start_slab m c ⟨n + 1, hn⟩ h0 r j
    · rw [stateAt_reuse m c ⟨n + 1, hn⟩ h0]
      unfold reuseAt
      dsimp only
      refine (slab_inv c n (Nat.lt_of_succ_lt hn) r j).trans ?_
      have e : slabRow n (Nat.lt_of_succ_lt hn) r = slabRow (n + 1) hn r := Fin.ext (by
        show 1024 * (n / 8) + r.val = 1024 * ((n + 1) / 8) + r.val; omega)
      rw [e]

end Cert.KernelIdeal.Body

end
-- ==== Proof.KI.OutValue.lean ====
/-
  The output block after each point, entry by entry, is the reference's function. The kernel's product at
  nibble-major position `j` of activation row `T` and weight row `o` is the reference's product at column
  `(j % 512) * 8 + j / 512`: the re-laid activation sits there, the nibble is that column's, and the repeated scale is
  that column's group scale. At a slab's first tile the block is the bias plus the eight panels' partial sums, one
  after the other; at a later tile it is the one sum over all positions plus the bias. Both are the whole sum plus the
  bias, sums over the extended reals being free to reorder.
-/
import proofs.«415939_j63342177681749_3_alg».proof.Proof.KI.Slab

set_option maxRecDepth 16384

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open Cert.Awq

variable (m : (ℓ : Loc nD τ sig) → Buf (Elt Ideal) ℓ)

/-- The vector unit's arithmetic shift by 28 - 4k is the plain sign-propagating shift. -/
theorem vec_shift (w : BitVec 32) (k : ℕ) (hk : k < 8) :
    IntOp.shrsi .vector w (BitVec.ofNat 32 (28 - 4 * k)) = w.sshiftRight' (BitVec.ofNat 32 (28 - 4 * k)) := by
  have h : (BitVec.ofNat 32 (28 - 4 * k)).toNat < 32 := by
    have : ∀ k' : Fin 8, (BitVec.ofNat 32 (28 - 4 * k'.val)).toNat < 32 := by decide
    exact this ⟨k, hk⟩
  unfold IntOp.shrsi; rw [if_pos h]

theorem nibV_eq (w : BitVec 32) (k : ℕ) (hk : k < 8) : nibV w k = nib w ⟨k, hk⟩ := by
  unfold nibV nib; rw [vec_shift w k hk]

/-- The reference's weight at a column, from the column's word, nibble and group. -/
theorem wt_eq (q : Vec Ideal S12288x512 .i32) (s : Vec Ideal S12288x32 .f32) (o : Fin 12288) (i : Fin 4096)
    (cc : Fin 512) (k : Fin 8) (g : Fin 32) (h1 : i.val / 8 = cc.val) (h2 : i.val % 8 = k.val) (h3 : i.val / 128 = g.val) :
    wt q s o i = nib (q (ix2 o cc)) k * s (ix2 o g) := by
  obtain ⟨cv, hcv⟩ := cc
  obtain ⟨kv, hkv⟩ := k
  obtain ⟨gv, hgv⟩ := g
  dsimp only at h1 h2 h3
  subst h1 h2 h3
  rfl

/-- The reference's product at activation row `T`, weight row `o`, column `i`. -/
def prodAt (c : Dev nD) (T : Fin 4096) (o : Fin 12288) (i : Fin 4096) : EReal :=
  xArg m c (ix2 T i) * wt (qArg m c) (sArg m c) o i

theorem G_eq (c : Dev nD) (T : Fin 4096) (o : Fin 12288) :
    G (xArg m c) (qArg m c) (sArg m c) (bArg m c) (ix2 T o) = (∑ i : Fin 4096, prodAt m c T o i) + bArg m c (ix1 o) := rfl

/-- One product of the kernel, at activation row `T`, weight row `o`, nibble-major position `j`, is the reference's
    product at column `nibMajor j`. -/
theorem entry_term (c : Dev nD) (T : Fin 4096) (o : Fin 12288) (j : Fin 4096) :
    xrArr m c (ix2 T j) * slabEntry m c o j = prodAt m c T o (nibMajor j) := by
  have hj := j.isLt
  unfold slabEntry prodAt
  rw [xr_apply, sr_apply, q_apply, nibV_eq _ _ (by omega : j.val / 512 < 8)]
  rw [wt_eq (qArg m c) (sArg m c) o (nibMajor j) (⟨j.val % 512, Nat.mod_lt _ (by decide)⟩ : Fin 512) (⟨j.val / 512, by omega⟩ : Fin 8)
    (⟨j.val % 512 / 16, by omega⟩ : Fin 32)
    (by show (j.val % 512 * 8 + j.val / 512) / 8 = j.val % 512; omega)
    (by show (j.val % 512 * 8 + j.val / 512) % 8 = j.val / 512; omega)
    (by show (j.val % 512 * 8 + j.val / 512) / 128 = j.val % 512 / 16; omega)]

/-- Nibble-major position `512 k + cc`. -/
def pos (k : ℕ) (hk : k < 8) (cc : Fin 512) : Fin 4096 := ⟨512 * k + cc.val, by have := cc.isLt; omega⟩

theorem nibMajor_pos (k : ℕ) (hk : k < 8) (cc : Fin 512) : nibMajor (pos k hk cc) = col cc ⟨k, hk⟩ := by
  have := cc.isLt
  apply Fin.ext
  show (512 * k + cc.val) % 512 * 8 + (512 * k + cc.val) / 512 = cc.val * 8 + k
  omega

theorem slabEntry_pos (c : Dev nD) (o : Fin 12288) (k : ℕ) (hk : k < 8) (cc : Fin 512) :
    slabEntry m c o (pos k hk cc) = nibV (qArr m c (ix2 o cc)) k * srArr m c (ix2 o cc) := by
  have hc := cc.isLt
  have e : (⟨(pos k hk cc).val % 512, Nat.mod_lt _ (by decide)⟩ : Fin 512) = cc := Fin.ext (by
    show (512 * k + cc.val) % 512 = cc.val; omega)
  have ek : (pos k hk cc).val / 512 = k := by show (512 * k + cc.val) / 512 = k; omega
  unfold slabEntry
  rw [e, ek]

/-- The activation row of tile `t % 8`. -/
abbrev tileRow (t : Fin cfg0.N) (a : Fin 512) : Fin 4096 := ⟨512 * (t.val % 8) + a.val, by have := a.isLt; omega⟩

/-- The blocks of point `t`, at their literal types. -/
abbrev xT (c : Dev nD) (t : Fin cfg0.N) : Vec Ideal S512x4096 .bf16 := iblk m c 0 t
abbrev qT (c : Dev nD) (t : Fin cfg0.N) : Vec Ideal S1024x512 .i32 := iblk m c 1 t
abbrev sT (c : Dev nD) (t : Fin cfg0.N) : Vec Ideal S1024x512 .f32 := iblk m c 2 t
abbrev bT (c : Dev nD) (t : Fin cfg0.N) : Vec Ideal S1x1024 .f32 := iblk m c 3 t

theorem xT_apply (c : Dev nD) (t : Fin cfg0.N) (a : Fin 512) (j : Fin 4096) :
    xT m c t (ix2 a j) = xrArr m c (ix2 (tileRow t a) j) := xblk_apply m c t a j
theorem qT_apply (c : Dev nD) (t : Fin cfg0.N) (a : Fin 1024) (j : Fin 512) :
    qT m c t (ix2 a j) = qArr m c (ix2 (slabRow t.val t.isLt a) j) := qblk_apply m c t a j
theorem sT_apply (c : Dev nD) (t : Fin cfg0.N) (a : Fin 1024) (j : Fin 512) :
    sT m c t (ix2 a j) = srArr m c (ix2 (slabRow t.val t.isLt a) j) := sblk_apply m c t a j
theorem bT_apply (c : Dev nD) (t : Fin cfg0.N) (j : Fin 1024) :
    bT m c t (ix2 (0 : Fin 1) j) = bArg m c (ix1 (slabRow t.val t.isLt j)) :=
  (bblk_apply m c t j).trans (b2_apply m c _)

/-- One product of a first tile's panel `k`, at word `cc`. -/
theorem point_term (c : Dev nD) (t : Fin cfg0.N) (a : Fin 512) (b : Fin 1024) (k : ℕ) (hk : k < 8) (cc : Fin 512) :
    xT m c t (ix2 a (pos k hk cc)) * (nibV (qT m c t (ix2 b cc)) k * sT m c t (ix2 b cc))
      = prodAt m c (tileRow t a) (slabRow t.val t.isLt b) (col cc ⟨k, hk⟩) := by
  rw [xT_apply, qT_apply, sT_apply, ← slabEntry_pos m c _ k hk cc, entry_term, nibMajor_pos]

theorem panel0_apply (x0 : Vec Ideal S512x4096 .bf16) (a cc : Fin 512) :
    panel0 x0 (ix2 a cc) = x0 (ix2 a (pos 0 (by decide) cc)) := by
  show x0 ((Rect.unit (s := S512x4096) ![0, 0] ![512, 512] inb_S512x4096_S512x512_0_0).emb (ix2 a cc)) = _
  congr 1
  funext x; apply Fin.ext
  match x with
  | ⟨0, _⟩ => show 0 + 1 * a.val = a.val; omega
  | ⟨1, _⟩ => show 0 + 1 * cc.val = 512 * 0 + cc.val; omega
theorem panel1_apply (x0 : Vec Ideal S512x4096 .bf16) (a cc : Fin 512) :
    panel1 x0 (ix2 a cc) = x0 (ix2 a (pos 1 (by decide) cc)) := by
  show x0 ((Rect.unit (s := S512x4096) ![0, 512] ![512, 512] inb_S512x4096_S512x512_0_512).emb (ix2 a cc)) = _
  congr 1
  funext x; apply Fin.ext
  match x with
  | ⟨0, _⟩ => show 0 + 1 * a.val = a.val; omega
  | ⟨1, _⟩ => show 512 + 1 * cc.val = 512 * 1 + cc.val; omega
theorem panel2_apply (x0 : Vec Ideal S512x4096 .bf16) (a cc : Fin 512) :
    panel2 x0 (ix2 a cc) = x0 (ix2 a (pos 2 (by decide) cc)) := by
  show x0 ((Rect.unit (s := S512x4096) ![0, 1024] ![512, 512] inb_S512x4096_S512x512_0_1024).emb (ix2 a cc)) = _
  congr 1
  funext x; apply Fin.ext
  match x with
  | ⟨0, _⟩ => show 0 + 1 * a.val = a.val; omega
  | ⟨1, _⟩ => show 1024 + 1 * cc.val = 512 * 2 + cc.val; omega
theorem panel3_apply (x0 : Vec Ideal S512x4096 .bf16) (a cc : Fin 512) :
    panel3 x0 (ix2 a cc) = x0 (ix2 a (pos 3 (by decide) cc)) := by
  show x0 ((Rect.unit (s := S512x4096) ![0, 1536] ![512, 512] inb_S512x4096_S512x512_0_1536).emb (ix2 a cc)) = _
  congr 1
  funext x; apply Fin.ext
  match x with
  | ⟨0, _⟩ => show 0 + 1 * a.val = a.val; omega
  | ⟨1, _⟩ => show 1536 + 1 * cc.val = 512 * 3 + cc.val; omega
theorem panel4_apply (x0 : Vec Ideal S512x4096 .bf16) (a cc : Fin 512) :
    panel4 x0 (ix2 a cc) = x0 (ix2 a (pos 4 (by decide) cc)) := by
  show x0 ((Rect.unit (s := S512x4096) ![0, 2048] ![512, 512] inb_S512x4096_S512x512_0_2048).emb (ix2 a cc)) = _
  congr 1
  funext x; apply Fin.ext
  match x with
  | ⟨0, _⟩ => show 0 + 1 * a.val = a.val; omega
  | ⟨1, _⟩ => show 2048 + 1 * cc.val = 512 * 4 + cc.val; omega
theorem panel5_apply (x0 : Vec Ideal S512x4096 .bf16) (a cc : Fin 512) :
    panel5 x0 (ix2 a cc) = x0 (ix2 a (pos 5 (by decide) cc)) := by
  show x0 ((Rect.unit (s := S512x4096) ![0, 2560] ![512, 512] inb_S512x4096_S512x512_0_2560).emb (ix2 a cc)) = _
  congr 1
  funext x; apply Fin.ext
  match x with
  | ⟨0, _⟩ => show 0 + 1 * a.val = a.val; omega
  | ⟨1, _⟩ => show 2560 + 1 * cc.val = 512 * 5 + cc.val; omega
theorem panel6_apply (x0 : Vec Ideal S512x4096 .bf16) (a cc : Fin 512) :
    panel6 x0 (ix2 a cc) = x0 (ix2 a (pos 6 (by decide) cc)) := by
  show x0 ((Rect.unit (s := S512x4096) ![0, 3072] ![512, 512] inb_S512x4096_S512x512_0_3072).emb (ix2 a cc)) = _
  congr 1
  funext x; apply Fin.ext
  match x with
  | ⟨0, _⟩ => show 0 + 1 * a.val = a.val; omega
  | ⟨1, _⟩ => show 3072 + 1 * cc.val = 512 * 6 + cc.val; omega
theorem panel7_apply (x0 : Vec Ideal S512x4096 .bf16) (a cc : Fin 512) :
    panel7 x0 (ix2 a cc) = x0 (ix2 a (pos 7 (by decide) cc)) := by
  show x0 ((Rect.unit (s := S512x4096) ![0, 3584] ![512, 512] inb_S512x4096_S512x512_0_3584).emb (ix2 a cc)) = _
  congr 1
  funext x; apply Fin.ext
  match x with
  | ⟨0, _⟩ => show 0 + 1 * a.val = a.val; omega
  | ⟨1, _⟩ => show 3584 + 1 * cc.val = 512 * 7 + cc.val; omega

theorem deq28_apply (q : Vec Ideal S1024x512 .i32) (s : FVec Ideal S1024x512 .f32) (y : S1024x512.Idx) :
    deq (F := Ideal) 28#32 q s y = nibV (q y) 0 * s y := rfl
theorem deq24_apply (q : Vec Ideal S1024x512 .i32) (s : FVec Ideal S1024x512 .f32) (y : S1024x512.Idx) :
    deq (F := Ideal) 24#32 q s y = nibV (q y) 1 * s y := rfl
theorem deq20_apply (q : Vec Ideal S1024x512 .i32) (s : FVec Ideal S1024x512 .f32) (y : S1024x512.Idx) :
    deq (F := Ideal) 20#32 q s y = nibV (q y) 2 * s y := rfl
theorem deq16_apply (q : Vec Ideal S1024x512 .i32) (s : FVec Ideal S1024x512 .f32) (y : S1024x512.Idx) :
    deq (F := Ideal) 16#32 q s y = nibV (q y) 3 * s y := rfl
theorem deq12_apply (q : Vec Ideal S1024x512 .i32) (s : FVec Ideal S1024x512 .f32) (y : S1024x512.Idx) :
    deq (F := Ideal) 12#32 q s y = nibV (q y) 4 * s y := rfl
theorem deq8_apply (q : Vec Ideal S1024x512 .i32) (s : FVec Ideal S1024x512 .f32) (y : S1024x512.Idx) :
    deq (F := Ideal) 8#32 q s y = nibV (q y) 5 * s y := rfl
theorem deq4_apply (q : Vec Ideal S1024x512 .i32) (s : FVec Ideal S1024x512 .f32) (y : S1024x512.Idx) :
    deq (F := Ideal) 4#32 q s y = nibV (q y) 6 * s y := rfl
theorem deq0_apply (q : Vec Ideal S1024x512 .i32) (s : FVec Ideal S1024x512 .f32) (y : S1024x512.Idx) :
    deq (F := Ideal) 0#32 q s y = nibV (q y) 7 * s y := rfl

theorem panel0_sum (c : Dev nD) (t : Fin cfg0.N) (a : Fin 512) (b : Fin 1024) :
    ∑ k : Fin 512, panel0 (xT m c t) (ix2 a k) * (nibV (qT m c t (ix2 b k)) 0 * sT m c t (ix2 b k))
      = ∑ cc : Fin 512, prodAt m c (tileRow t a) (slabRow t.val t.isLt b) (col cc 0) :=
  Finset.sum_congr rfl fun cc _ => by
    rw [panel0_apply]
    exact point_term m c t a b 0 (by decide) cc
theorem panel1_sum (c : Dev nD) (t : Fin cfg0.N) (a : Fin 512) (b : Fin 1024) :
    ∑ k : Fin 512, panel1 (xT m c t) (ix2 a k) * (nibV (qT m c t (ix2 b k)) 1 * sT m c t (ix2 b k))
      = ∑ cc : Fin 512, prodAt m c (tileRow t a) (slabRow t.val t.isLt b) (col cc 1) :=
  Finset.sum_congr rfl fun cc _ => by
    rw [panel1_apply]
    exact point_term m c t a b 1 (by decide) cc
theorem panel2_sum (c : Dev nD) (t : Fin cfg0.N) (a : Fin 512) (b : Fin 1024) :
    ∑ k : Fin 512, panel2 (xT m c t) (ix2 a k) * (nibV (qT m c t (ix2 b k)) 2 * sT m c t (ix2 b k))
      = ∑ cc : Fin 512, prodAt m c (tileRow t a) (slabRow t.val t.isLt b) (col cc 2) :=
  Finset.sum_congr rfl fun cc _ => by
    rw [panel2_apply]
    exact point_term m c t a b 2 (by decide) cc
theorem panel3_sum (c : Dev nD) (t : Fin cfg0.N) (a : Fin 512) (b : Fin 1024) :
    ∑ k : Fin 512, panel3 (xT m c t) (ix2 a k) * (nibV (qT m c t (ix2 b k)) 3 * sT m c t (ix2 b k))
      = ∑ cc : Fin 512, prodAt m c (tileRow t a) (slabRow t.val t.isLt b) (col cc 3) :=
  Finset.sum_congr rfl fun cc _ => by
    rw [panel3_apply]
    exact point_term m c t a b 3 (by decide) cc
theorem panel4_sum (c : Dev nD) (t : Fin cfg0.N) (a : Fin 512) (b : Fin 1024) :
    ∑ k : Fin 512, panel4 (xT m c t) (ix2 a k) * (nibV (qT m c t (ix2 b k)) 4 * sT m c t (ix2 b k))
      = ∑ cc : Fin 512, prodAt m c (tileRow t a) (slabRow t.val t.isLt b) (col cc 4) :=
  Finset.sum_congr rfl fun cc _ => by
    rw [panel4_apply]
    exact point_term m c t a b 4 (by decide) cc
theorem panel5_sum (c : Dev nD) (t : Fin cfg0.N) (a : Fin 512) (b : Fin 1024) :
    ∑ k : Fin 512, panel5 (xT m c t) (ix2 a k) * (nibV (qT m c t (ix2 b k)) 5 * sT m c t (ix2 b k))
      = ∑ cc : Fin 512, prodAt m c (tileRow t a) (slabRow t.val t.isLt b) (col cc 5) :=
  Finset.sum_congr rfl fun cc _ => by
    rw [panel5_apply]
    exact point_term m c t a b 5 (by decide) cc
theorem panel6_sum (c : Dev nD) (t : Fin cfg0.N) (a : Fin 512) (b : Fin 1024) :
    ∑ k : Fin 512, panel6 (xT m c t) (ix2 a k) * (nibV (qT m c t (ix2 b k)) 6 * sT m c t (ix2 b k))
      = ∑ cc : Fin 512, prodAt m c (tileRow t a) (slabRow t.val t.isLt b) (col cc 6) :=
  Finset.sum_congr rfl fun cc _ => by
    rw [panel6_apply]
    exact point_term m c t a b 6 (by decide) cc
theorem panel7_sum (c : Dev nD) (t : Fin cfg0.N) (a : Fin 512) (b : Fin 1024) :
    ∑ k : Fin 512, panel7 (xT m c t) (ix2 a k) * (nibV (qT m c t (ix2 b k)) 7 * sT m c t (ix2 b k))
      = ∑ cc : Fin 512, prodAt m c (tileRow t a) (slabRow t.val t.isLt b) (col cc 7) :=
  Finset.sum_congr rfl fun cc _ => by
    rw [panel7_apply]
    exact point_term m c t a b 7 (by decide) cc

set_option maxHeartbeats 1600000 in
/-- The block a slab's first tile leaves is the reference's block. -/
theorem out_start (c : Dev nD) (t : Fin cfg0.N) (h0 : t.val % 8 = 0) (a : Fin 512) (b : Fin 1024) :
    (startAt m c t h0).1 (ix2 a b)
      = G (xArg m c) (qArg m c) (sArg m c) (bArg m c) (ix2 (tileRow t a) (slabRow t.val t.isLt b)) := by
  unfold startAt
  dsimp only
  rw [outStart_eq, G_eq]
  show step (F := Ideal) (deq 0#32 (qT m c t) (k0_pay4 (sT m c t))) (panel7 (xT m c t)) (step (deq 4#32 (qT m c t) (k0_pay4 (sT m c t))) (panel6 (xT m c t))
      (step (deq 8#32 (qT m c t) (k0_pay4 (sT m c t))) (panel5 (xT m c t)) (step (deq 12#32 (qT m c t) (k0_pay4 (sT m c t))) (panel4 (xT m c t))
        (step (deq 16#32 (qT m c t) (k0_pay4 (sT m c t))) (panel3 (xT m c t)) (step (deq 20#32 (qT m c t) (k0_pay4 (sT m c t))) (panel2 (xT m c t))
          (step (deq 24#32 (qT m c t) (k0_pay4 (sT m c t))) (panel1 (xT m c t)) (step (deq 28#32 (qT m c t) (k0_pay4 (sT m c t))) (panel0 (xT m c t))
            (k0_pay5 (bT m c t))))))))) (ix2 a b) = _
  simp only [step_apply, pay5_apply, pay4_eq, deq0_apply, deq4_apply, deq8_apply, deq12_apply, deq16_apply, deq20_apply,
    deq24_apply, deq28_apply, bT_apply]
  rw [panel0_sum, panel1_sum, panel2_sum, panel3_sum, panel4_sum, panel5_sum, panel6_sum, panel7_sum]
  exact seeded_sum (prodAt m c (tileRow t a) (slabRow t.val t.isLt b)) (bArg m c (ix1 (slabRow t.val t.isLt b)))

/-- The block a later tile leaves, given the slab the scratch holds, is the reference's block. -/
theorem out_reuse (c : Dev nD) (t : Fin cfg0.N) (h0 : ¬t.val % 8 = 0) (xs : Vec Ideal S1024x4096 .bf16)
    (hxs : ∀ (r : Fin 1024) (j : Fin 4096), xs (ix2 r j) = slabEntry m c (slabRow t.val t.isLt r) j)
    (a : Fin 512) (b : Fin 1024) :
    (reuseAt m c t h0 xs).1 (ix2 a b)
      = G (xArg m c) (qArg m c) (sArg m c) (bArg m c) (ix2 (tileRow t a) (slabRow t.val t.isLt b)) := by
  unfold reuseAt
  dsimp only
  rw [outReuse_eq, G_eq]
  show k0_pay3 (F := Ideal) (xT m c t) xs (bT m c t) (ix2 a b) = _
  rw [pay3_apply, bT_apply, ← sum_nibMajor (prodAt m c (tileRow t a) (slabRow t.val t.isLt b))]
  congr 1
  refine Finset.sum_congr rfl fun j _ => ?_
  rw [hxs, xT_apply, entry_term]

/-- After every point the output's staging buffer holds the reference's block. -/
theorem out_value (c : Dev nD) (t : Fin cfg0.N) (a : Fin 512) (b : Fin 1024) :
    (stateAt m c t.val t.isLt).1 (ix2 a b)
      = G (xArg m c) (qArg m c) (sArg m c) (bArg m c) (ix2 (tileRow t a) (slabRow t.val t.isLt b)) := by
  by_cases h0 : t.val % 8 = 0
  · rw [stateAt_start m c t h0]
    exact out_start m c t h0 a b
  · rw [stateAt_reuse m c t h0]
    refine out_reuse m c t h0 _ (fun r j => ?_) a b
    refine (slab_inv m c (t.val - 1) _ r j).trans ?_
    have e : slabRow (t.val - 1) (Nat.lt_of_le_of_lt (Nat.sub_le _ _) t.isLt) r = slabRow t.val t.isLt r := Fin.ext (by
      show 1024 * ((t.val - 1) / 8) + r.val = 1024 * (t.val / 8) + r.val
      have : t.val ≠ 0 := fun h => h0 (by rw [h])
      omega)
    rw [e]

end Cert.KernelIdeal.Body

end
-- ==== Proof.KI.Final.lean ====
/-
  The result array after the run. Every point writes its output block back; block `t` is rows `512 (t % 8) ..`,
  columns `1024 (t / 8) ..` of the array, the 96 blocks tile it, and each holds the reference's function there. So the
  array ends holding that function of the arguments, and the arguments are unchanged.
-/
import proofs.«415939_j63342177681749_3_alg».proof.Proof.KI.OutValue

set_option maxRecDepth 16384

noncomputable section

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

open Cert.Awq

variable (m : (ℓ : Loc nD τ sig) → Buf (Elt Ideal) ℓ) (ρ : Dev nD → PrngReg)

/-- The result: `x` times the transposed dequantized weight plus the bias, of the arguments. -/
abbrev result (c : Dev nD) : Buf (Elt Ideal) ((c.tc : Thread nD τ).loc main_v7) :=
  G (xArg m c) (qArg m c) (sArg m c) (bArg m c)

/-- The output's staging buffer after point `t`, as one function of the block index. -/
theorem block_eq (c : Dev nD) (t : Fin cfg0.N) :
    (stateAt m c t.val t.isLt).1
      = fun y : S512x1024.Idx => result m c (ix2 (tileRow t (y 0)) (slabRow t.val t.isLt (y 1))) := by
  funext y
  obtain ⟨a, b, rfl⟩ : ∃ (a : Fin 512) (b : Fin 1024), y = ix2 a b := ⟨y 0, y 1, eq_ix2 y⟩
  exact out_value m c t a b

/-- What point `t` writes back is block `t` of the result. -/
theorem flushed_eq (c : Dev nD) (t : Fin cfg0.N) :
    (dats m 0 c).flushed 4 t = ((cfg0.win 4).blk t).view.read (Elt Ideal) (result m c) := by
  obtain ⟨-, -, -, -, -, -, -, -, e0, e1⟩ := idx_maps t
  show (cfg0.win 4).cut (grid0.coords t) ((dats m 0 c).after 4 t) = _
  rw [after_o, block_eq]
  funext y
  show result m c (ix2 (tileRow t (y 0)) (slabRow t.val t.isLt (y 1))) = result m c (((cfg0.win 4).blk t).view.emb y)
  congr 1
  funext x; apply Fin.ext
  match x with
  | ⟨0, _⟩ => show 512 * (t.val % 8) + (y 0).val = win0_4.index t (0 : Fin 2) * 512 + 1 * (y 0).val; omega
  | ⟨1, _⟩ => show 1024 * (t.val / 8) + (y 1).val = win0_4.index t (1 : Fin 2) * 1024 + 1 * (y 1).val; omega

/-- An index of the array is in point `t`'s block iff each coordinate is in the block's range. -/
theorem mem_blk (t : Fin cfg0.N) (i : S4096x12288.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v7).slice (win0_4.rect t)).set ↔ _
  rw [View.set_slice_whole, Rect.mem_set_unit]
  exact Iff.rfl

/-- Every entry of the array is in the block of the point of its slab and tile. -/
theorem covered (i : S4096x12288.Idx) :
    ∃ t : Fin cfg0.N, (cfg0.win 4).flush t = true ∧ i ∈ ((cfg0.win 4).blk t).view.set := by
  have h0 : (i 0).val < 4096 := (i 0).isLt
  have h1 : (i 1).val < 12288 := (i 1).isLt
  have hN : 8 * ((i 1).val / 1024) + (i 0).val / 512 < cfg0.N := by rw [show cfg0.N = 96 from N_0]; omega
  obtain ⟨-, -, -, -, -, -, -, -, e0, e1⟩ := idx_maps ⟨8 * ((i 1).val / 1024) + (i 0).val / 512, hN⟩
  refine ⟨⟨8 * ((i 1).val / 1024) + (i 0).val / 512, hN⟩, flush0_4 _, ?_⟩
  rw [mem_blk]
  intro a
  match a with
  | ⟨0, _⟩ =>
    show win0_4.index ⟨8 * ((i 1).val / 1024) + (i 0).val / 512, hN⟩ (0 : Fin 2) * 512 ≤ (i 0).val
      ∧ (i 0).val < win0_4.index ⟨8 * ((i 1).val / 1024) + (i 0).val / 512, hN⟩ (0 : Fin 2) * 512 + 512
    rw [e0]; dsimp only; omega
  | ⟨1, _⟩ =>
    show win0_4.index ⟨8 * ((i 1).val / 1024) + (i 0).val / 512, hN⟩ (1 : Fin 2) * 1024 ≤ (i 1).val
      ∧ (i 1).val < win0_4.index ⟨8 * ((i 1).val / 1024) + (i 0).val / 512, hN⟩ (1 : Fin 2) * 1024 + 1024
    rw [e1]; dsimp only; omega

/-- The result array ends holding the result. -/
theorem final (c : Dev nD) : (dats m 0 c).arrAt 4 cfg0.N = result m c :=
  (dats m 0 c).arrAt_eq_of_cover 4 (result m c) (fun t _ => flushed_eq m c t) covered

/-- The run, read: the result array at the result, the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Body

end
-- ==== Proof.RefValue.lean ====
/-
  The reference, read at an index. It unpacks every word's eight nibbles (shift right by 28, 24, ..., 0 — the shift
  amounts computed as 28 + (-4)·k in 32-bit arithmetic — and mask with 15), lays them out as the 4096 columns of a row,
  converts them to numbers, multiplies by the column's group scale, contracts with `x` over the columns and adds the
  bias. Index by index this is the function `Cert.Awq.G`.
-/
import proofs.«415939_j63342177681749_3_alg».proof.Proof.Gen.ReferenceIdeal.Read
import proofs.«415939_j63342177681749_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Awq

/-- The shift amount of nibble `k` as the reference computes it, 28 + (-4)·k modulo 2^32, is 28 - 4k. -/
theorem shift_word : ∀ k : Fin 8,
    IntOp.addi 28#32 (IntOp.muli 4294967292#32 (BitVec.ofNat 32 k.val)) = BitVec.ofNat 32 (28 - 4 * k.val) := by
  decide

theorem shift_small : ∀ k : Fin 8, (BitVec.ofNat 32 (28 - 4 * k.val)).toNat < 32 := by decide

/-- The host's arithmetic shift by that amount is the plain sign-propagating shift. -/
theorem host_shift (w : BitVec 32) (k : Fin 8) :
    IntOp.shrsi .host w (IntOp.addi 28#32 (IntOp.muli 4294967292#32 (BitVec.ofNat 32 k.val)))
      = w.sshiftRight' (BitVec.ofNat 32 (28 - 4 * k.val)) := by
  rw [shift_word]; unfold IntOp.shrsi; rw [if_pos (shift_small k)]

/-- The dequantized weight the reference multiplies by, at row `o` and column `i`. -/
theorem weight_apply (x1 : (⟨S12288x512, .i32⟩ : BufTy).Contents (Elt Ideal)) (x2 : (⟨S12288x32, .f32⟩ : BufTy).Contents (Elt Ideal))
    (o : Fin 12288) (i : Fin 4096) :
    val_main_v16 (F := Ideal) x1 x2 (ix2 o i) = wt x1 x2 o i := by
  have ho : o.val < 12288 := o.isLt
  have hi : i.val < 4096 := i.isLt
  have eq : idx_main_v5 (idx_main_v7 (idx_main_v12 (ix2 o i))) = ix2 o (⟨i.val / 8, by omega⟩ : Fin 512) :=
    funext fun a => Fin.ext (by
      match a with
      | ⟨0, _⟩ => show (o.val * 4096 + i.val) / 4096 = o.val; omega
      | ⟨1, _⟩ => show (o.val * 4096 + i.val) / 8 % 512 = i.val / 8; omega)
  have ek : idx_main_v6 (idx_main_v8 (idx_main_v12 (ix2 o i))) = ix1 (⟨i.val % 8, by omega⟩ : Fin 8) :=
    funext fun a => Fin.ext (by
      match a with
      | ⟨0, _⟩ => show (o.val * 4096 + i.val) % 8 = i.val % 8; omega)
  have es : idx_main_v14 (idx_main_v15 (ix2 o i)) = ix2 o (⟨i.val / 128, by omega⟩ : Fin 32) :=
    funext fun a => Fin.ext (by
      match a with
      | ⟨0, _⟩ => show (o.val * 4096 + i.val) / 4096 = o.val; omega
      | ⟨1, _⟩ => show (o.val * 4096 + i.val) / 128 % 32 = i.val / 128; omega)
  rw [val_main_v16_apply, val_main_v13_apply, val_main_v12_apply, val_main_v11_apply, val_main_v9_apply,
    val_main_v7_apply, val_main_v5_apply, val_main_v8_apply, val_main_v6_apply, val_main_v4_apply, val_main_v3_apply,
    val_main_c_0_apply, val_main_v2_apply, val_main_v1_apply, val_main_c_apply, val_main_v0_apply, val_main_v10_apply,
    val_main_c_1_apply, val_main_v15_apply, val_main_v14_apply, eq, ek, es]
  show ((((IntOp.andi (IntOp.shrsi .host (x1 _) (IntOp.addi 28#32 (IntOp.muli 4294967292#32 (BitVec.ofNat 32 (i.val % 8))))) 15#32).toInt : ℝ) : EReal)) * x2 _ = _
  rw [host_shift (x1 _) (⟨i.val % 8, by omega⟩ : Fin 8)]
  rfl

/-- The reference's result is `G` of its arguments. -/
theorem result_eq (x0 : (⟨S4096x4096, .f32⟩ : BufTy).Contents (Elt Ideal)) (x1 : (⟨S12288x512, .i32⟩ : BufTy).Contents (Elt Ideal))
    (x2 : (⟨S12288x32, .f32⟩ : BufTy).Contents (Elt Ideal)) (x3 : (⟨S12288, .f32⟩ : BufTy).Contents (Elt Ideal)) :
    val_main_v20 (F := Ideal) x0 x1 x2 x3 = G x0 x1 x2 x3 := by
  funext j
  obtain ⟨t, o, rfl⟩ : ∃ (t : Fin 4096) (o : Fin 12288), j = ix2 t o := ⟨j 0, j 1, eq_ix2 j⟩
  have el : ∀ k : Fin 4096, lidx_main_v17 (ix2 t o) k = ix2 t k := fun k =>
    funext fun a => Fin.ext (by match a with | ⟨0, _⟩ => rfl | ⟨1, _⟩ => rfl)
  have er : ∀ k : Fin 4096, ridx_main_v17 (ix2 t o) k = ix2 o k := fun k =>
    funext fun a => Fin.ext (by match a with | ⟨0, _⟩ => rfl | ⟨1, _⟩ => rfl)
  have eb : idx_main_v18 (idx_main_v19 (ix2 t o)) = ix1 o :=
    funext fun a => Fin.ext (by match a with | ⟨0, _⟩ => rfl)
  rw [val_main_v20_apply, val_main_v17_apply, val_main_v19_apply, val_main_v18_apply, eb]
  simp only [el, er, weight_apply]
  rfl

end Cert.ReferenceIdeal.RefValue

end
-- ==== Proof.lean ====
/-
  An int4-packed linear layer: `out = x · dequant(qweight, scales)ᵀ + bias`. Each 32-bit word of `qweight` packs eight
  4-bit weights, top nibble first; the weight at row `o`, column `i` is nibble `i % 8` of word `i / 8` of row `o`
  (a number 0..15) times the scale of the column's group of 128.

  The reference unpacks the words, scales them and takes one matrix product. The kernel permutes the activation
  columns into nibble-major order (all nibble-0 columns, then all nibble-1 columns, ...) so that a fixed shift of the
  whole packed tile yields a contiguous panel of weights; on a 12 x 8 grid (weight slab by activation tile) it
  dequantizes a slab once, at the slab's first tile, into a scratch buffer while accumulating the eight panels'
  products onto the bias, and at the seven later tiles multiplies the activation tile by the slab the scratch still
  holds and adds the bias.

  On the extended reals both are, entry by entry, the sum over the 4096 columns of `x[t, i] · w[o, i]` plus `bias[o]`:
  the kernel's sums are that sum reordered (by the permutation of the columns) and regrouped (bias first, then eight
  partial sums), which addition on the extended reals allows with no finiteness assumption; changes of float format
  are the identity there. The frames carry the scratch slab from grid point to grid point in the region's invariant.
-/
import proofs.«415939_j63342177681749_3_alg».proof.Defs
import proofs.«415939_j63342177681749_3_alg».proof.Proof.Gen.Kernel
import proofs.«415939_j63342177681749_3_alg».proof.Proof.Gen.KernelIdeal
import proofs.«415939_j63342177681749_3_alg».proof.Proof.Gen.ReferenceIdeal
import proofs.«415939_j63342177681749_3_alg».proof.Proof.Gen.Pre_finite_inputs
import proofs.«415939_j63342177681749_3_alg».proof.Proof.K.Frame
import proofs.«415939_j63342177681749_3_alg».proof.Proof.KI.Final
import proofs.«415939_j63342177681749_3_alg».proof.Proof.RefValue

noncomputable section

namespace Cert.Proof

open Idealize.ShloMosaic Idealize.SL.Sem

/-- The kernel as printed runs to its end without a fault and leaves its arguments unchanged. -/
theorem frame_k : @Cert.frame_Kernel Cert.Kernel.Gen.facts Cert.Pre_finite_inputs.Gen.facts :=
  fun m ρ _ => Cert.Kernel.Body.frame m ρ

/-- So does its idealization. -/
theorem frame_ki : @Cert.frame_KernelIdeal Cert.KernelIdeal.Gen.facts Cert.Pre_finite_inputs.Gen.facts :=
  fun m ρ _ => Cert.KernelIdeal.Body.frame m ρ

/-- The reference is straight-line host code: its run with the result dropped. -/
theorem frame_r : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the same function of the arguments in their result arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
